-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x150x384x512 : Shape := ⟨4, ![4, 150, 384, 512]⟩
abbrev S4x1x384x512 : Shape := ⟨4, ![4, 1, 384, 512]⟩
abbrev S150x150 : Shape := ⟨2, ![150, 150]⟩
abbrev S_ : Shape := ⟨0, ![]⟩

class Facts : Prop where
  bcast_S_S4x150x384x512 : S_.BroadcastsInDim S4x150x384x512 (![] : Fin 0 → Fin S4x150x384x512.rank)
  reducesTo_S4x150x384x512_S_d0_1_2_3 : S4x150x384x512.ReducesTo [0, 1, 2, 3] S_
  h_S_ : 0 < S_.numel
  bcast_S_S4x1x384x512 : S_.BroadcastsInDim S4x1x384x512 (![] : Fin 0 → Fin S4x1x384x512.rank)
  reducesTo_S4x1x384x512_S_d0_1_2_3 : S4x1x384x512.ReducesTo [0, 1, 2, 3] S_
  bcast_S_S150x150 : S_.BroadcastsInDim S150x150 (![] : Fin 0 → Fin S150x150.rank)
  reducesTo_S150x150_S_d0_1 : S150x150.ReducesTo [0, 1] S_

variable [Facts]

def fn_part1 {F : FTy → Type} [FloatOps F] (main_arg1 : IVec S4x1x384x512 32) (main_v13 : IVec S_ 1) (main_v16 : IVec S150x150 1) : IVec S_ 1 :=
  let main_c_5 : IVec S_ 1 := constantI S_ 1 1#1
  let main_v17 : IVec S_ 1 := (fun x v => Host.reduce IntOp.andi x v reducesTo_S150x150_S_d0_1 h_S_) main_v16 main_c_5
  let main_v18 : IVec S_ 1 := andi main_v13 main_v17
  let main_c_6 : IVec S_ 32 := constantI S_ 32 0#32
  let main_v19 : IVec S4x1x384x512 32 := broadcastInDim S4x1x384x512 ![] bcast_S_S4x1x384x512 main_c_6
  let main_v20 : IVec S4x1x384x512 1 := cmpi .sge main_arg1 main_v19
  let main_c_7 : IVec S_ 1 := constantI S_ 1 1#1
  let main_v21 : IVec S_ 1 := (fun x v => Host.reduce IntOp.andi x v reducesTo_S4x1x384x512_S_d0_1_2_3 h_S_) main_v20 main_c_7
  let main_v22 : IVec S_ 1 := andi main_v18 main_v21
  let main_c_8 : IVec S_ 32 := constantI S_ 32 150#32
  let main_v23 : IVec S4x1x384x512 32 := broadcastInDim S4x1x384x512 ![] bcast_S_S4x1x384x512 main_c_8
  let main_v24 : IVec S4x1x384x512 1 := cmpi .slt main_arg1 main_v23
  let main_c_9 : IVec S_ 1 := constantI S_ 1 1#1
  let main_v25 : IVec S_ 1 := (fun x v => Host.reduce IntOp.andi x v reducesTo_S4x1x384x512_S_d0_1_2_3 h_S_) main_v24 main_c_9
  let main_v26 : IVec S_ 1 := andi main_v22 main_v25
  main_v26

def fn {F : FTy → Type} [FloatOps F] (main_arg0 : FVec F S4x150x384x512 .f32) (main_arg1 : IVec S4x1x384x512 32) (main_arg2 : FVec F S4x1x384x512 .f32) (main_arg3 : FVec F S4x1x384x512 .f32) (main_arg4 : FVec F S150x150 .f32) : IVec S_ 1 :=
  let main_v0 : FVec F S4x150x384x512 .f32 := Host.absf main_arg0
  let main_cst : FVec F S_ .f32 := constant S_ .f32 0x7F800000#32
  let main_v1 : FVec F S4x150x384x512 .f32 := broadcastInDim S4x150x384x512 ![] bcast_S_S4x150x384x512 main_cst
  let main_v2 : IVec S4x150x384x512 1 := cmpf .olt main_v0 main_v1
  let main_c : IVec S_ 1 := constantI S_ 1 1#1
  let main_v3 : IVec S_ 1 := (fun x v => Host.reduce IntOp.andi x v reducesTo_S4x150x384x512_S_d0_1_2_3 h_S_) main_v2 main_c
  let main_v4 : FVec F S4x1x384x512 .f32 := Host.absf main_arg2
  let main_cst_0 : FVec F S_ .f32 := constant S_ .f32 0x7F800000#32
  let main_v5 : FVec F S4x1x384x512 .f32 := broadcastInDim S4x1x384x512 ![] bcast_S_S4x1x384x512 main_cst_0
  let main_v6 : IVec S4x1x384x512 1 := cmpf .olt main_v4 main_v5
  let main_c_1 : IVec S_ 1 := constantI S_ 1 1#1
  let main_v7 : IVec S_ 1 := (fun x v => Host.reduce IntOp.andi x v reducesTo_S4x1x384x512_S_d0_1_2_3 h_S_) main_v6 main_c_1
  let main_v8 : IVec S_ 1 := andi main_v3 main_v7
  let main_v9 : FVec F S4x1x384x512 .f32 := Host.absf main_arg3
  let main_cst_2 : FVec F S_ .f32 := constant S_ .f32 0x7F800000#32
  let main_v10 : FVec F S4x1x384x512 .f32 := broadcastInDim S4x1x384x512 ![] bcast_S_S4x1x384x512 main_cst_2
  let main_v11 : IVec S4x1x384x512 1 := cmpf .olt main_v9 main_v10
  let main_c_3 : IVec S_ 1 := constantI S_ 1 1#1
  let main_v12 : IVec S_ 1 := (fun x v => Host.reduce IntOp.andi x v reducesTo_S4x1x384x512_S_d0_1_2_3 h_S_) main_v11 main_c_3
  let main_v13 : IVec S_ 1 := andi main_v8 main_v12
  let main_v14 : FVec F S150x150 .f32 := Host.absf main_arg4
  let main_cst_4 : FVec F S_ .f32 := constant S_ .f32 0x7F800000#32
  let main_v15 : FVec F S150x150 .f32 := broadcastInDim S150x150 ![] bcast_S_S150x150 main_cst_4
  let main_v16 : IVec S150x150 1 := cmpf .olt main_v14 main_v15
  fn_part1 (F := F) main_arg1 main_v13 main_v16
-- ==== Kernel.lean ====
abbrev S4x150x384x512 : Shape := ⟨4, ![4, 150, 384, 512]⟩
abbrev S4x1x384x512 : Shape := ⟨4, ![4, 1, 384, 512]⟩
abbrev S150x150 : Shape := ⟨2, ![150, 150]⟩
abbrev S4x150x196608 : Shape := ⟨3, ![4, 150, 196608]⟩
abbrev S4x1x196608 : Shape := ⟨3, ![4, 1, 196608]⟩
abbrev S4x150x150 : Shape := ⟨3, ![4, 150, 150]⟩
abbrev S1x150x4096 : Shape := ⟨3, ![1, 150, 4096]⟩
abbrev S1x1x4096 : Shape := ⟨3, ![1, 1, 4096]⟩
abbrev S1x150x150 : Shape := ⟨3, ![1, 150, 150]⟩
abbrev S150x4096 : Shape := ⟨2, ![150, 4096]⟩
abbrev S4096 : Shape := ⟨1, ![4096]⟩
abbrev S1x4096 : Shape := ⟨2, ![1, 4096]⟩
abbrev S_ : Shape := ⟨0, ![]⟩

abbrev nBuf : Space → Nat
  | .hbm => 23
  | .vmem => 8
  | .smem => 0
  | _ => 0

abbrev bufTy : (tb : Table) → Fin (tcTables nBuf tb) → BufTy
  | .hbm, ⟨0, _⟩ => ⟨S4x150x384x512, .f32⟩
  | .hbm, ⟨1, _⟩ => ⟨S4x1x384x512, .i32⟩
  | .hbm, ⟨2, _⟩ => ⟨S4x1x384x512, .f32⟩
  | .hbm, ⟨3, _⟩ => ⟨S4x1x384x512, .f32⟩
  | .hbm, ⟨4, _⟩ => ⟨S150x150, .f32⟩
  | .hbm, ⟨5, _⟩ => ⟨S4x150x196608, .f32⟩
  | .hbm, ⟨6, _⟩ => ⟨S4x1x196608, .i32⟩
  | .hbm, ⟨7, _⟩ => ⟨S4x1x196608, .f32⟩
  | .hbm, ⟨8, _⟩ => ⟨S4x150x150, .f32⟩
  | .hbm, ⟨9, _⟩ => ⟨S_, .f32⟩
  | .hbm, ⟨10, _⟩ => ⟨S150x150, .f32⟩
  | .hbm, ⟨11, _⟩ => ⟨S_, .f32⟩
  | .hbm, ⟨12, _⟩ => ⟨S4x1x384x512, .f32⟩
  | .hbm, ⟨13, _⟩ => ⟨S4x1x384x512, .i1⟩
  | .hbm, ⟨14, _⟩ => ⟨S4x1x384x512, .i32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S150x150, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x150x4096, .f32⟩
  | .local _ .vmem, ⟨1, _⟩ => ⟨S1x150x4096, .f32⟩
  | .local _ .vmem, ⟨2, _⟩ => ⟨S1x1x4096, .i32⟩
  | .local _ .vmem, ⟨3, _⟩ => ⟨S1x1x4096, .i32⟩
  | .local _ .vmem, ⟨4, _⟩ => ⟨S1x1x4096, .f32⟩
  | .local _ .vmem, ⟨5, _⟩ => ⟨S1x1x4096, .f32⟩
  | .local _ .vmem, ⟨6, _⟩ => ⟨S1x150x150, .f32⟩
  | .local _ .vmem, ⟨7, _⟩ => ⟨S1x150x150, .f32⟩
  | _, _ => ⟨S4x150x384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 48], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x150x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x150x150 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x150x384x512_S4x150x196608 : S4x150x384x512.ShapeCasts S4x150x196608
  shapeCasts_S4x1x384x512_S4x1x196608 : S4x1x384x512.ShapeCasts S4x1x196608
  inb_S1x150x4096_S1x150x4096_0_0_0 : ∀ a, (![0, 0, 0] : Fin 3 → Nat) a + S1x150x4096.size a ≤ S1x150x4096.size a
  h_S1x150x4096 : 0 < S1x150x4096.numel
  shapeCasts_S1x150x4096_S150x4096 : S1x150x4096.ShapeCasts S150x4096
  reduces_S150x4096_S4096 : S150x4096.Reduces [0] S4096
  shapeCasts_S4096_S1x4096 : S4096.ShapeCasts S1x4096
  broadcasts_S1x4096_S150x4096 : S1x4096.Broadcasts S150x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  bitsLt_bf16_f32 : FTy.bits .bf16 < FTy.bits .f32
  iota_S150x4096_d0_w32 : S150x4096.Iotas .tc 32 [0]
  natLt_1_32 : 1 < 32
  inb_S1x150x150_S1x150x150_0_0_0 : ∀ a, (![0, 0, 0] : Fin 3 → Nat) a + S1x150x150.size a ≤ S1x150x150.size a
  h_S1x150x150 : 0 < S1x150x150.numel
  shapeCasts_S1x150x150_S150x150 : S1x150x150.ShapeCasts S150x150
  shapeCasts_S150x150_S1x150x150 : S150x150.ShapeCasts S1x150x150
  reducesTo_S4x150x150_S150x150_d0 : S4x150x150.ReducesTo [0] S150x150
  h_S_ : 0 < S_.numel
  bcast_S_S4x1x384x512 : S_.BroadcastsInDim S4x1x384x512 (![] : Fin 0 → Fin S4x1x384x512.rank)
  reducesTo_S4x1x384x512_S_d0_1_2_3 : S4x1x384x512.ReducesTo [0, 1, 2, 3] S_
  reducesTo_S150x150_S_d0_1 : S150x150.ReducesTo [0, 1] S_
  dot_S150x4096_S150x4096_S150x150_1_1_0_0_n_n_wf : DotDims.WF S150x4096 S150x4096 S150x150 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x150x4096.size a ≤ S4x150x196608.size a
  hwx0_0 : ∀ i : grid0.Coords, EltTy.bits .f32 = 32 ∨ (Rect.block (s := S4x150x196608) S1x150x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S4x1x196608.size a
  hwx0_1 : ∀ i : grid0.Coords, EltTy.bits .i32 = 32 ∨ (Rect.block (s := S4x1x196608) S1x1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S4x1x196608.size a
  hwx0_2 : ∀ i : grid0.Coords, EltTy.bits .f32 = 32 ∨ (Rect.block (s := S4x1x196608) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x150x150.size a ≤ S4x150x150.size a
  hwx0_3 : ∀ i : grid0.Coords, EltTy.bits .f32 = 32 ∨ (Rect.block (s := S4x150x150) S1x150x150.size (cc0_transform_3 i) (hinb0_3 i)).WholeWords (EltTy.packing .f32)

variable [Facts₀]

def dot_S150x4096_S150x4096_S150x150_1_1_0_0_n_n : DotDims S150x4096 S150x4096 S150x150 where
  lhsContracting := [1]
  rhsContracting := [1]
  lhsNonContracting := [0]
  rhsNonContracting := [0]
  lhsBatch := []
  rhsBatch := []
  wf := dot_S150x4096_S150x4096_S150x150_1_1_0_0_n_n_wf

abbrev win0_0 : Pipeline.Window sig grid0 :=
  Pipeline.Window.ofSpec (Memref.whole main_v0) S1x150x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x150x150.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x150x384x512 : Shape := ⟨4, ![4, 150, 384, 512]⟩
abbrev S4x1x384x512 : Shape := ⟨4, ![4, 1, 384, 512]⟩
abbrev S150x150 : Shape := ⟨2, ![150, 150]⟩
abbrev S_ : Shape := ⟨0, ![]⟩
abbrev S4x384x512 : Shape := ⟨3, ![4, 384, 512]⟩
abbrev S4x384x512x150 : Shape := ⟨4, ![4, 384, 512, 150]⟩
abbrev S786432x150 : Shape := ⟨2, ![786432, 150]⟩
abbrev S786432x1 : Shape := ⟨2, ![786432, 1]⟩
abbrev S786432 : Shape := ⟨1, ![786432]⟩

abbrev nBuf : Space → Nat
  | .hbm => 49
  | .vmem => 0
  | .smem => 0
  | _ => 0

abbrev bufTy : (tb : Table) → Fin (tcTables nBuf tb) → BufTy
  | .hbm, ⟨0, _⟩ => ⟨S4x150x384x512, .f32⟩
  | .hbm, ⟨1, _⟩ => ⟨S4x1x384x512, .i32⟩
  | .hbm, ⟨2, _⟩ => ⟨S4x1x384x512, .f32⟩
  | .hbm, ⟨3, _⟩ => ⟨S4x1x384x512, .f32⟩
  | .hbm, ⟨4, _⟩ => ⟨S150x150, .f32⟩
  | .hbm, ⟨5, _⟩ => ⟨S_, .f32⟩
  | .hbm, ⟨6, _⟩ => ⟨S4x384x512, .f32⟩
  | .hbm, ⟨7, _⟩ => ⟨S_, .f32⟩
  | .hbm, ⟨8, _⟩ => ⟨S4x384x512, .f32⟩
  | .hbm, ⟨9, _⟩ => ⟨S4x384x512, .f32⟩
  | .hbm, ⟨10, _⟩ => ⟨S4x1x384x512, .f32⟩
  | .hbm, ⟨11, _⟩ => ⟨S4x150x384x512, .f32⟩
  | .hbm, ⟨12, _⟩ => ⟨S4x150x384x512, .f32⟩
  | .hbm, ⟨13, _⟩ => ⟨S4x150x384x512, .f32⟩
  | .hbm, ⟨14, _⟩ => ⟨S_, .f32⟩
  | .hbm, ⟨15, _⟩ => ⟨S4x384x512, .f32⟩
  | .hbm, ⟨16, _⟩ => ⟨S4x1x384x512, .f32⟩
  | .hbm, ⟨17, _⟩ => ⟨S4x1x384x512, .f32⟩
  | .hbm, ⟨18, _⟩ => ⟨S4x150x384x512, .f32⟩
  | .hbm, ⟨19, _⟩ => ⟨S4x150x384x512, .f32⟩
  | .hbm, ⟨20, _⟩ => ⟨S4x384x512x150, .f32⟩
  | .hbm, ⟨21, _⟩ => ⟨S786432x150, .f32⟩
  | .hbm, ⟨22, _⟩ => ⟨S786432x1, .f32⟩
  | .hbm, ⟨23, _⟩ => ⟨S786432x150, .f32⟩
  | .hbm, ⟨24, _⟩ => ⟨S786432x150, .f32⟩
  | .hbm, ⟨25, _⟩ => ⟨S786432, .i32⟩
  | .hbm, ⟨26, _⟩ => ⟨S_, .i32⟩
  | .hbm, ⟨27, _⟩ => ⟨S786432, .i32⟩
  | .hbm, ⟨28, _⟩ => ⟨S786432, .i1⟩
  | .hbm, ⟨29, _⟩ => ⟨S_, .i32⟩
  | .hbm, ⟨30, _⟩ => ⟨S786432, .i32⟩
  | .hbm, ⟨31, _⟩ => ⟨S786432, .i32⟩
  | .hbm, ⟨32, _⟩ => ⟨S786432, .i32⟩
  | .hbm, ⟨33, _⟩ => ⟨S786432x1, .i32⟩
  | .hbm, ⟨34, _⟩ => ⟨S786432x150, .f32⟩
  | .hbm, ⟨35, _⟩ => ⟨S786432x150, .f32⟩
  | .hbm, ⟨36, _⟩ => ⟨S786432x150, .f32⟩
  | .hbm, ⟨37, _⟩ => ⟨S_, .f32⟩
  | .hbm, ⟨38, _⟩ => ⟨S786432x1, .f32⟩
  | .hbm, ⟨39, _⟩ => ⟨S786432x1, .i1⟩
  | .hbm, ⟨40, _⟩ => ⟨S786432x1, .i32⟩
  | .hbm, ⟨41, _⟩ => ⟨S_, .i32⟩
  | .hbm, ⟨42, _⟩ => ⟨S_, .i32⟩
  | .hbm, ⟨43, _⟩ => ⟨S_, .f32⟩
  | .hbm, ⟨44, _⟩ => ⟨S786432x150, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4x150x384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩

abbrev nD : Nat := 1
abbrev τ : Topo := Topo.v7x

variable {F : FTy → Type} [FloatOps F]

class Facts₀ : Prop where
  reducesTo_S4x150x384x512_S4x384x512_d1 : S4x150x384x512.ReducesTo [1] S4x384x512
  h_S_ : 0 < S_.numel
  bcast_S_S4x384x512 : S_.BroadcastsInDim S4x384x512 (![] : Fin 0 → Fin S4x384x512.rank)
  bcast_S4x384x512_S4x1x384x512_0_2_3 : S4x384x512.BroadcastsInDim S4x1x384x512 (![0, 2, 3] : Fin 3 → Fin S4x1x384x512.rank)
  bcast_S4x1x384x512_S4x150x384x512_0_1_2_3 : S4x1x384x512.BroadcastsInDim S4x150x384x512 (![0, 1, 2, 3] : Fin 4 → Fin S4x150x384x512.rank)
  transposes_S4x150x384x512_S4x384x512x150_0_2_3_1 : S4x150x384x512.Transposes [0, 2, 3, 1] S4x384x512x150
  shapeCasts_S4x384x512x150_S786432x150 : S4x384x512x150.ShapeCasts S786432x150
  shapeCasts_S4x1x384x512_S786432x1 : S4x1x384x512.ShapeCasts S786432x1
  bcast_S786432x1_S786432x150_0_1 : S786432x1.BroadcastsInDim S786432x150 (![0, 1] : Fin 2 → Fin S786432x150.rank)
  shapeCasts_S4x1x384x512_S786432 : S4x1x384x512.ShapeCasts S786432
  bcast_S_S786432 : S_.BroadcastsInDim S786432 (![] : Fin 0 → Fin S786432.rank)
  bcast_S786432_S786432x1_0 : S786432.BroadcastsInDim S786432x1 (![0] : Fin 1 → Fin S786432x1.rank)
  bcast_S_S786432x1 : S_.BroadcastsInDim S786432x1 (![] : Fin 0 → Fin S786432x1.rank)
  natLt_1_32 : 1 < 32
  reducesTo_S786432x1_S_d0_1 : S786432x1.ReducesTo [0, 1] S_
  reducesTo_S786432x150_S_d0_1 : S786432x150.ReducesTo [0, 1] S_
  gather_S150x150_S786432x1_S786432x150_1_0_n_n_0_1_1150_wf : GatherDims.WF S150x150 S786432x1 S786432x150 [1] [0] [] [0] [] 1 ![1, 150]

variable [Facts₀]

def gather_S150x150_S786432x1_S786432x150_1_0_n_n_0_1_1150 : GatherDims S150x150 S786432x1 S786432x150 where
  offsetDims := [1]
  collapsedSliceDims := [0]
  operandBatchingDims := []
  startIndicesBatchingDims := []
  startIndexMap := [0]
  indexVectorDim := 1
  sliceSizes := ![1, 150]
  wf := gather_S150x150_S786432x1_S786432x150_1_0_n_n_0_1_1150_wf

class Facts : Prop extends Facts₀ where

variable [Facts]
-- ==== Proof.RefRunHand.lean ====
/-
  The reference program's run, read: every weakly fair execution ends with the result buffer at the last stage's value of
  the argument arrays (the program's 44 host lines composed, stage by stage) and the arguments unchanged.

  The program's first fifteen operations are the inlined log-softmax, spelt over typed references: each moves its operands
  and its result along the equation "this reference's buffer type is the value's type". At a literal reference that
  equation is reflexivity and the transport is the identity, so the operation IS the plain one over the same references;
  with the fifteen read so, what the whole line leaves in the result buffer is the composition of the 44 operations'
  functions, which is the last stage by unfolding the stages.
-/
import proofs.«400182_j24893630447739_3_alg».proof.Proof.RefRead
import Idealize.ShloMosaic.Lib.StableHlo.Run

noncomputable section

open scoped BigOperators

namespace Cert.WCE.RefRunHand

open Idealize.ShloMosaic Idealize.ShloMosaic.TcCoe Idealize.SL.Sem Idealize.ShloMosaic.StableHlo
open Cert.ReferenceIdeal Cert.ReferenceIdeal.Gen Cert.ReferenceIdeal.Value Cert.ReferenceIdeal.Read

variable {F : FTy → Type} [FloatOps F]

/-- Contents of a 32-bit float array of shape `s`. -/
private abbrev Cf (F : FTy → Type) (s : Shape) : Type := (⟨s, .f32⟩ : BufTy).Contents (Elt F)

/-- The inlined log-softmax (the program's first fifteen operations), each over its plain references. -/
private abbrev opsA : List (HloOp τ sig (Elt F)) :=
  [ nullary main_call0_cst (constant S_ .f32 0xFF800000#32),
    binary main_arg0 main_call0_cst main_call0_v0 ((fun x v => Host.reduce FloatOps.maximumf x v reducesTo_S4x150x384x512_S4x384x512_d1 h_S_) : Cf F S4x150x384x512 → Cf F S_ → Cf F S4x384x512),
    nullary main_call0_cst_0 (constant S_ .f32 0xFF800000#32),
    unary main_call0_cst_0 main_call0_v1 (broadcastInDim S4x384x512 ![] bcast_S_S4x384x512 : Cf F S_ → Cf F S4x384x512),
    binary main_call0_v1 main_call0_v0 main_call0_v2 (maximumf : Cf F S4x384x512 → Cf F S4x384x512 → Cf F S4x384x512),
    unary main_call0_v2 main_call0_v3 (broadcastInDim S4x1x384x512 ![0, 2, 3] bcast_S4x384x512_S4x1x384x512_0_2_3 : Cf F S4x384x512 → Cf F S4x1x384x512),
    unary main_call0_v3 main_call0_v4 (broadcastInDim S4x150x384x512 ![0, 1, 2, 3] bcast_S4x1x384x512_S4x150x384x512_0_1_2_3 : Cf F S4x1x384x512 → Cf F S4x150x384x512),
    binary main_arg0 main_call0_v4 main_call0_v5 (subf : Cf F S4x150x384x512 → Cf F S4x150x384x512 → Cf F S4x150x384x512),
    unary main_call0_v5 main_call0_v6 (Host.exp : Cf F S4x150x384x512 → Cf F S4x150x384x512),
    nullary main_call0_cst_1 (constant S_ .f32 0x00000000#32),
    binary main_call0_v6 main_call0_cst_1 main_call0_v7 ((fun x v => Host.reduceAdd x v reducesTo_S4x150x384x512_S4x384x512_d1 h_S_) : Cf F S4x150x384x512 → Cf F S_ → Cf F S4x384x512),
    unary main_call0_v7 main_call0_v8 (broadcastInDim S4x1x384x512 ![0, 2, 3] bcast_S4x384x512_S4x1x384x512_0_2_3 : Cf F S4x384x512 → Cf F S4x1x384x512),
    unary main_call0_v8 main_call0_v9 (Host.log : Cf F S4x1x384x512 → Cf F S4x1x384x512),
    unary main_call0_v9 main_call0_v10 (broadcastInDim S4x150x384x512 ![0, 1, 2, 3] bcast_S4x1x384x512_S4x150x384x512_0_1_2_3 : Cf F S4x1x384x512 → Cf F S4x150x384x512),
    binary main_call0_v5 main_call0_v10 main_v0 (subf : Cf F S4x150x384x512 → Cf F S4x150x384x512 → Cf F S4x150x384x512) ]

/-- Over a reference taken at its own buffer type, a typed reference's operation is the plain one: the transports are along
    reflexivity. One statement for each number of operands. -/
private theorem tref_nullary (y : Ref sig .tc) (dy : y.space ≠ .host) (uy : y.isScoped = false) (v : y.ty.Contents (Elt F)) :
    (TRef.nullary (TRef.of (T := y.ty) y rfl dy uy) v : HloOp τ sig (Elt F))
      = nullary y v (TRef.of (T := y.ty) y rfl dy uy).dev := rfl
private theorem tref_unary (x y : Ref sig .tc) (dx : x.space ≠ .host) (ux : x.isScoped = false) (dy : y.space ≠ .host) (uy : y.isScoped = false)
    (f : x.ty.Contents (Elt F) → y.ty.Contents (Elt F)) :
    (TRef.unary (TRef.of (T := x.ty) x rfl dx ux) (TRef.of (T := y.ty) y rfl dy uy) f : HloOp τ sig (Elt F))
      = unary x y f (TRef.of (T := x.ty) x rfl dx ux).dev (TRef.of (T := y.ty) y rfl dy uy).dev := rfl
private theorem tref_binary (a b y : Ref sig .tc) (da : a.space ≠ .host) (ua : a.isScoped = false) (db : b.space ≠ .host) (ub : b.isScoped = false)
    (dy : y.space ≠ .host) (uy : y.isScoped = false) (f : a.ty.Contents (Elt F) → b.ty.Contents (Elt F) → y.ty.Contents (Elt F)) :
    (TRef.binary (TRef.of (T := a.ty) a rfl da ua) (TRef.of (T := b.ty) b rfl db ub) (TRef.of (T := y.ty) y rfl dy uy) f : HloOp τ sig (Elt F))
      = binary a b y f (TRef.of (T := a.ty) a rfl da ua).dev (TRef.of (T := b.ty) b rfl db ub).dev (TRef.of (T := y.ty) y rfl dy uy).dev := rfl

/-- The program's first fifteen operations are those, one by one (a literal reference's buffer type IS the value's type). -/
private theorem take_opsA : (ops (F := F)).take 15 = opsA := by
  simp only [ops, List.take]
  exact congrArg₂ List.cons (tref_nullary _ _ _ _) <| congrArg₂ List.cons (tref_binary _ _ _ _ _ _ _ _ _ _) <|
    congrArg₂ List.cons (tref_nullary _ _ _ _) <| congrArg₂ List.cons (tref_unary _ _ _ _ _ _ _) <|
    congrArg₂ List.cons (tref_binary _ _ _ _ _ _ _ _ _ _) <| congrArg₂ List.cons (tref_unary _ _ _ _ _ _ _) <|
    congrArg₂ List.cons (tref_unary _ _ _ _ _ _ _) <| congrArg₂ List.cons (tref_binary _ _ _ _ _ _ _ _ _ _) <|
    congrArg₂ List.cons (tref_unary _ _ _ _ _ _ _) <| congrArg₂ List.cons (tref_nullary _ _ _ _) <|
    congrArg₂ List.cons (tref_binary _ _ _ _ _ _ _ _ _ _) <| congrArg₂ List.cons (tref_unary _ _ _ _ _ _ _) <|
    congrArg₂ List.cons (tref_unary _ _ _ _ _ _ _) <| congrArg₂ List.cons (tref_unary _ _ _ _ _ _ _) <|
    congrArg₂ List.cons (tref_binary _ _ _ _ _ _ _ _ _ _) rfl

/-- The whole line: the plain fifteen, then the other twenty-nine. -/
private theorem ops_split : (ops (F := F)) = opsA ++ (ops (F := F)).drop 15 := by
  rw [← take_opsA, List.take_append_drop]

/-- What the line leaves in the result buffer: the last stage of the argument buffers' contents. -/
private theorem after_v24 (V : Valuation τ sig (Elt F)) :
    StableHlo.after (ops (F := F)) V (Proc.devRef .tc main_v24)
      = val_main_v24 (F := F) (V (Proc.devRef .tc main_arg0)) (V (Proc.devRef .tc main_arg1)) (V (Proc.devRef .tc main_arg3))
          (V (Proc.devRef .tc main_arg4)) := by
  rw [ops_split]
  simp only [ops, List.drop, List.cons_append, List.nil_append]
  after_results_simp
  rfl

/-- No operation of the line writes an argument buffer. -/
private theorem after_arg0 (V : Valuation τ sig (Elt F)) :
    StableHlo.after (ops (F := F)) V (Proc.devRef .tc main_arg0) = V (Proc.devRef .tc main_arg0) := by
  after_results_simp
private theorem after_arg1 (V : Valuation τ sig (Elt F)) :
    StableHlo.after (ops (F := F)) V (Proc.devRef .tc main_arg1) = V (Proc.devRef .tc main_arg1) := by
  after_results_simp
private theorem after_arg2 (V : Valuation τ sig (Elt F)) :
    StableHlo.after (ops (F := F)) V (Proc.devRef .tc main_arg2) = V (Proc.devRef .tc main_arg2) := by
  after_results_simp
private theorem after_arg3 (V : Valuation τ sig (Elt F)) :
    StableHlo.after (ops (F := F)) V (Proc.devRef .tc main_arg3) = V (Proc.devRef .tc main_arg3) := by
  after_results_simp
private theorem after_arg4 (V : Valuation τ sig (Elt F)) :
    StableHlo.after (ops (F := F)) V (Proc.devRef .tc main_arg4) = V (Proc.devRef .tc main_arg4) := by
  after_results_simp

/-- The run of the reference, its result at the last stage of the launch contents of the arguments. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
          = val_main_v24 (F := F) (m ((c.tc : Thread nD τ).loc main_arg0)) (m ((c.tc : Thread nD τ).loc main_arg1))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v24).trans (after_v24 _), (h c main_arg0).trans (after_arg0 _),
      (h c main_arg1).trans (after_arg1 _), (h c main_arg2).trans (after_arg2 _), (h c main_arg3).trans (after_arg3 _),
      (h c main_arg4).trans (after_arg4 _)⟩)
    (run_seq scopedRefs_eq scopedSems_eq defs main (fun _ => ops) main_eq (fun _ => ops_sub) m ρ)

end Cert.WCE.RefRunHand

end
-- ==== Proof.Spec.lean ====
/-
  The weighted cross-entropy loss as one function of its four arrays, over the extended reals.

  A pixel is a flat index n < 786432 = 4 · 384 · 512, read row-major as (b, h, w). At a pixel the 150 logits
  form a column; its log-softmax is (x_c − max) − log Σ_c' exp (x_c' − max). With μ the mask value and g the
  bin at the pixel, the loss's numerator is Σ_n Σ_c (W[g, c] · μ) · (lsm_c · μ), and the same number is also
  Σ_k Σ_c W[k, c] · Σ_n ([k = g] · μ) · (lsm_c · μ): the second form is what a one-hot product accumulates,
  pixel tile by pixel tile, tile t holding the pixels 4096 t + q.
-/
import Idealize.ShloMosaic.PureOps.Ideal
import Idealize.ShloMosaic.Lib.ValueIdx

noncomputable section

open scoped BigOperators

namespace Cert.WCE

open Idealize.ShloMosaic Idealize.ShloMosaic.ValueIdx

/-- The logits' shape (b, c, h, w), the mask's and the bins' (b, 1, h, w), the weight table's (k, c). -/
abbrev SPred : Shape := ⟨4, ![4, 150, 384, 512]⟩
abbrev SMask : Shape := ⟨4, ![4, 1, 384, 512]⟩
abbrev SWt : Shape := ⟨2, ![150, 150]⟩

/-- Pixel n's batch, row and column: n = (b · 384 + h) · 512 + w. -/
def bOf (n : Fin 786432) : Fin 4 := ⟨n.val / 196608, by have := n.isLt; omega⟩
def hOf (n : Fin 786432) : Fin 384 := ⟨n.val / 512 % 384, Nat.mod_lt _ (by decide)⟩
def wOf (n : Fin 786432) : Fin 512 := ⟨n.val % 512, Nat.mod_lt _ (by decide)⟩

/-- Pixel n in the mask's (and the bins') array, and its logit of class c in the logits' array. -/
def pixM (n : Fin 786432) : SMask.Idx := ix4 (bOf n) (0 : Fin 1) (hOf n) (wOf n)
def pixP (n : Fin 786432) (c : Fin 150) : SPred.Idx := ix4 (bOf n) c (hOf n) (wOf n)

/-- Pixel q of tile t: the tiles are 4096 consecutive flat pixels, 192 of them. -/
def flat (t : Fin 192) (q : Fin 4096) : Fin 786432 := ⟨4096 * t.val + q.val, by have := t.isLt; have := q.isLt; omega⟩

/-- A column's maximum (from −∞) and its log-softmax. -/
def colMax (col : Fin 150 → EReal) : EReal := (Finset.univ : Finset (Fin 150)).fold max ⊥ col
def lsm (col : Fin 150 → EReal) (c : Fin 150) : EReal :=
  (col c - colMax col) - Ideal.log (∑ c' : Fin 150, Ideal.exp (col c' - colMax col))

/-- The mask value, the bin word and the log-probability of class c at pixel n. -/
def mu (Mk : SMask.Idx → EReal) (n : Fin 786432) : EReal := Mk (pixM n)
def bin (Gb : SMask.Idx → BitVec 32) (n : Fin 786432) : BitVec 32 := Gb (pixM n)
def lp (P : SPred.Idx → EReal) (n : Fin 786432) (c : Fin 150) : EReal := lsm (fun c' => P (pixP n c')) c

/-- A bin word as a class (the word itself when it is below 150). -/
def cls (g : BitVec 32) : Fin 150 := ⟨g.toNat % 150, Nat.mod_lt _ (by decide)⟩

/-- The one-hot entry as a compare of words yields it: 1 where the class's word is the bin word, else 0. -/
def hot (k : Fin 150) (g : BitVec 32) : EReal := if BitVec.ofNat 32 k.val = g then 1 else 0

/-- One pixel's term of the one-hot product at (k, c), and tile t's sum of them (0 past the last tile). -/
def tileTerm (P : SPred.Idx → EReal) (Gb : SMask.Idx → BitVec 32) (Mk : SMask.Idx → EReal) (k c : Fin 150)
    (n : Fin 786432) : EReal :=
  (hot k (bin Gb n) * mu Mk n) * (lp P n c * mu Mk n)
def tileSum (P : SPred.Idx → EReal) (Gb : SMask.Idx → BitVec 32) (Mk : SMask.Idx → EReal) (k c : Fin 150)
    (t : ℕ) : EReal :=
  if h : t < 192 then ∑ q : Fin 4096, tileTerm P Gb Mk k c (flat ⟨t, h⟩ q) else 0

/-- What the one-hot product has accumulated for batch b after all of its 48 tiles, as an array (b, k, c). -/
def accArr (P : SPred.Idx → EReal) (Gb : SMask.Idx → BitVec 32) (Mk : SMask.Idx → EReal) :
    (⟨3, ![4, 150, 150]⟩ : Shape).Idx → EReal :=
  fun i => ∑ s ∈ Finset.range 48, tileSum P Gb Mk (i 1) (i 2) (48 * (i 0).val + s)

/-- The loss's numerator, pixel by pixel: the weight row of the pixel's bin against its masked log-probabilities. -/
def numer (P : SPred.Idx → EReal) (Gb : SMask.Idx → BitVec 32) (Mk : SMask.Idx → EReal) (W : SWt.Idx → EReal) : EReal :=
  ∑ n : Fin 786432, ∑ c : Fin 150, (W (ix2 (cls (bin Gb n)) c) * mu Mk n) * (lp P n c * mu Mk n)

end Cert.WCE

end
-- ==== Proof.KBody.lean ====
/-
  What one run of the kernel body leaves in the output block, as a value: the block it found plus the one-hot
  product of the tile, entry by entry.
-/
import proofs.«400182_j24893630447739_3_alg».proof.Proof.Gen.KernelIdeal.Frame
import proofs.«400182_j24893630447739_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.WCE.KBody

open Idealize.ShloMosaic Idealize.ShloMosaic.TcCoe Idealize.SL.Sem Idealize.ShloMosaic.ValueIdx
open Cert.KernelIdeal Cert.KernelIdeal.Gen Cert.WCE

variable {F : FTy → Type} [FloatOps F]

/-- The zero offsets of a rank-3 block. -/
private theorem hz3 : (![0, 0, 0] : Fin 3 → Nat) = fun _ => 0 := funext fun a => by fin_cases a <;> rfl

/-! ## The non-pointwise steps, each read at explicit coordinates -/

/-- A column's sum: the add-reduction over axis 0 of a matrix, read at a column. -/
private theorem colSum_apply {m n : Nat} (src : FVec Ideal ⟨2, ![m, n]⟩ .f32)
    (h : (⟨2, ![m, n]⟩ : Shape).Reduces [0] ⟨1, ![n]⟩) (hφ : FKind.Formats .f32)
    (hacc : (0x00000000#32 : BitVec 32) = 0x00000000#32) (q : Fin n) :
    multiReduction (F := Ideal) .add [0] ⟨1, ![n]⟩ src 0x00000000#32 h hφ hacc (ix1 q) = ∑ c : Fin m, src (ix2 c q) := by
  refine (Ideal.multiReduction_add_single src 0x00000000#32 h hφ hacc (ix1 q)).trans ?_
  show ∑ c : Fin m, src (h.lift (ix1 q) c) = _
  refine Finset.sum_congr rfl fun c _ => congrArg src (funext fun a => Fin.ext ?_)
  match a with
  | ⟨0, _⟩ => rfl
  | ⟨1, _⟩ => rfl

/-- A column's maximum: the max-reduction over axis 0 from −∞, read at a column. -/
private theorem colMax_apply {m n : Nat} (src : FVec Ideal ⟨2, ![m, n]⟩ .f32)
    (h : (⟨2, ![m, n]⟩ : Shape).Reduces [0] ⟨1, ![n]⟩) (hφ : FKind.Formats .f32)
    (hacc : (0xFF800000#32 : BitVec 32) = 0xFF800000#32) (q : Fin n) :
    multiReduction (F := Ideal) .maximumf [0] ⟨1, ![n]⟩ src 0xFF800000#32 h hφ hacc (ix1 q)
      = (Finset.univ : Finset (Fin m)).fold max ⊥ (fun c => src (ix2 c q)) := by
  refine (Ideal.multiReduction_maximumf_single src 0xFF800000#32 h hφ hacc (ix1 q)).trans ?_
  have hb : (FloatOps.ofBits (F := Ideal) .f32 0xFF800000#32 : EReal) = ⊥ := by
    show Ideal.ofBits .f32 0xFF800000#32 = ⊥
    simp [Ideal.ofBits, Ideal.ieee]
  rw [hb]
  show (Finset.univ : Finset (Fin m)).fold max ⊥ (src ∘ h.lift (ix1 q)) = _
  congr 1
  funext c
  refine congrArg src (funext fun a => Fin.ext ?_)
  match a with
  | ⟨0, _⟩ => rfl
  | ⟨1, _⟩ => rfl

/-- The product of a matrix with another's transpose: both operands contract their axis 1. Read at (a, b) it is the sum,
    over the contracted coordinate, of the products of the two rows' entries. -/
private theorem matmulT_apply {m n k : Nat} {φ₁ φ₂ : FTy}
    (w : DotDims.WF ⟨2, ![m, k]⟩ ⟨2, ![n, k]⟩ ⟨2, ![m, n]⟩ [1] [1] [0] [0] [] [])
    (A : FVec Ideal ⟨2, ![m, k]⟩ φ₁) (B : FVec Ideal ⟨2, ![n, k]⟩ φ₂) (a : Fin m) (b : Fin n) :
    matmul (F := Ideal) (⟨[1], [1], [0], [0], [], [], w⟩ : DotDims _ _ _) none A B
        (constant (F := Ideal) ⟨2, ![m, n]⟩ .f32 0x00000000#32) (ix2 a b)
      = ∑ c : Fin k, A (ix2 a c) * B (ix2 b c) := by
  show FloatOps.matmul _ none A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The one-hot entry: the compare of the row's number, as a word, with the bin word, widened and read as a float. -/
private theorem onehot_apply {m n : Nat} (hi : (⟨2, ![m, n]⟩ : Shape).Iotas .tc 32 [0]) (G : IVec ⟨2, ![m, n]⟩ 32) (hlt : 1 < 32)
    (k : Fin m) (q : Fin n) :
    (sitofp (F := Ideal) .f32 (extui 32 (cmpi .eq (iota .tc ⟨2, ![m, n]⟩ 32 [0] hi) G) hlt) : FVec Ideal ⟨2, ![m, n]⟩ .f32) (ix2 k q)
      = if BitVec.ofNat 32 k.val = G (ix2 k q) then (1 : EReal) else 0 := by
  rw [sitofp_apply, extui_apply]
  show FloatOps.sitofp (F := Ideal) .f32 ((IntOp.cmpi .eq (iota .tc ⟨2, ![m, n]⟩ 32 [0] hi (ix2 k q)) (G (ix2 k q))).setWidth 32) = _
  rw [iota_single_apply]
  show (((((IntOp.cmpi .eq (BitVec.ofNat 32 k.val) (G (ix2 k q))).setWidth 32).toInt : ℝ)) : EReal) = _
  by_cases hkg : BitVec.ofNat 32 k.val = G (ix2 k q)
  · rw [if_pos hkg, ← hkg]
    simp [IntOp.cmpi]
  · rw [if_neg hkg]
    have hb : (BitVec.ofNat 32 k.val == G (ix2 k q)) = false := beq_eq_false_iff_ne.mpr hkg
    simp [IntOp.cmpi, hb]

/-- The body's product: the 150 × 4096 one-hot block against the 150 × 4096 log-probability block, both contracting the
    pixel axis, into the zero block. -/
private theorem dot_apply (A B : FVec Ideal S150x4096 .bf16) (a b : Fin 150) :
    matmul (F := Ideal) dot_S150x4096_S150x4096_S150x150_1_1_0_0_n_n none A B
        (constant (F := Ideal) S150x150 .f32 0x00000000#32) (ix2 a b)
      = ∑ q : Fin 4096, A (ix2 a q) * B (ix2 b q) :=
  matmulT_apply (dot_S150x4096_S150x4096_S150x150_1_1_0_0_n_n).wf A B a b

/-- The exponential and the logarithm of a block, read at an index. -/
private theorem exp_at {s : Shape} {φ : FTy} (x : FVec Ideal s φ) (i : s.Idx) : exp x i = Ideal.exp (x i) := rfl
private theorem log_at {s : Shape} {φ : FTy} (x : FVec Ideal s φ) (i : s.Idx) : log x i = Ideal.log (x i) := rfl

/-! ## The two control cases -/

/-- At a first tile of a batch the body stores the zero block, reads it back and adds the tile's product. -/
theorem out_A (c : Dev nD) (i : grid0.Coords) (a2 : Memref sig .tc .vmem S1x150x4096 .f32) (h2 : a2.IsWhole)
    (a3 : Memref sig .tc .vmem S1x1x4096 .i32) (h3 : a3.IsWhole) (a4 : Memref sig .tc .vmem S1x1x4096 .f32) (h4 : a4.IsWhole)
    (a5 : Memref sig .tc .vmem S1x150x150 .f32) (h5 : a5.IsWhole) (hc : cond0_0 i)
    (x0 : Vec F S1x150x4096 .f32) (x1 : Vec F S1x1x4096 .i32) (x2 : Vec F S1x1x4096 .f32) :
    out0_A_3 c i a2 h2 a3 h3 a4 h4 a5 h5 hc x0 x1 x2 = k0_pay2 x0 x2 x1 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x150x150) hz3, View.readCov_unit_zero (S := S1x150x150) _ hz3]
  simp only [View.readAt_eq_ld, h2.read_unread, h3.read_unread, h4.read_unread,
    View.ld_unit_zero (S := S1x150x4096) hz3, View.ld_unit_zero (S := S1x1x4096) hz3]

/-- At any other tile it adds the tile's product to what the block held. -/
theorem out_B (c : Dev nD) (i : grid0.Coords) (a2 : Memref sig .tc .vmem S1x150x4096 .f32) (h2 : a2.IsWhole)
    (a3 : Memref sig .tc .vmem S1x1x4096 .i32) (h3 : a3.IsWhole) (a4 : Memref sig .tc .vmem S1x1x4096 .f32) (h4 : a4.IsWhole)
    (a5 : Memref sig .tc .vmem S1x150x150 .f32) (h5 : a5.IsWhole) (hc : ¬cond0_0 i)
    (x0 : Vec F S1x150x4096 .f32) (x1 : Vec F S1x1x4096 .i32) (x2 : Vec F S1x1x4096 .f32) (xo : Vec F S1x150x150 .f32) :
    out0_B_3 c i a2 h2 a3 h3 a4 h4 a5 h5 hc x0 x1 x2 xo = k0_pay2 x0 x2 x1 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread,
    View.ld_unit_zero (S := S1x150x4096) hz3, View.ld_unit_zero (S := S1x1x4096) hz3,
    View.ld_unit_zero (S := S1x150x150) hz3]

/-- The zero block is 0 everywhere. -/
theorem pay1_apply (j : S1x150x150.Idx) : (k0_pay1 (F := Ideal) : Vec Ideal S1x150x150 .f32) j = (0 : EReal) := by
  obtain ⟨u, a, b, rfl⟩ : ∃ (u : Fin 1) (a b : Fin 150), j = ix3 u a b := ⟨j 0, j 1, j 2, eq_ix3 j⟩
  unfold k0_pay1
  simp only [shapeCast_ab_1ab_apply, broadcast_apply]
  exact Ideal.ofBits_zero_f32

/-- THE BODY'S ARITHMETIC AT (k, c): the block's entry plus, over the tile's 4096 pixels, the one-hot entry times the
    mask against the column's log-softmax times the mask. -/
theorem pay2_apply (x0 : Vec Ideal S1x150x4096 .f32) (x2 : Vec Ideal S1x1x4096 .f32) (x1 : Vec Ideal S1x1x4096 .i32)
    (acc : Vec Ideal S1x150x150 .f32) (k c : Fin 150) :
    (k0_pay2 (F := Ideal) x0 x2 x1 acc : Vec Ideal S1x150x150 .f32) (ix3 (0 : Fin 1) k c)
      = acc (ix3 (0 : Fin 1) k c)
        + ∑ q : Fin 4096, (hot k (x1 (ix3 (0 : Fin 1) (0 : Fin 1) q)) * x2 (ix3 (0 : Fin 1) (0 : Fin 1) q))
            * (lsm (fun c' => x0 (ix3 (0 : Fin 1) c' q)) c * x2 (ix3 (0 : Fin 1) (0 : Fin 1) q)) := by
  unfold k0_pay2
  simp only [shapeCast_ab_1ab_apply, addf_apply, shapeCast_1ab_ab_apply, dot_apply]
  refine congrArg (acc (ix3 (0 : Fin 1) k c) + ·) (Finset.sum_congr rfl fun q _ => ?_)
  simp only [truncf_apply, mulf_apply, subf_apply, log_at, broadcastTo_1b_ab_apply, shapeCast_1ab_ab_apply,
    shapeCast_a_1a_apply]
  rw [onehot_apply]
  simp only [broadcastTo_1b_ab_apply, shapeCast_1ab_ab_apply]
  rw [colSum_apply]
  simp only [exp_at, subf_apply, broadcastTo_1b_ab_apply, shapeCast_1ab_ab_apply, shapeCast_a_1a_apply]
  rw [colMax_apply]
  simp only [shapeCast_1ab_ab_apply]
  unfold hot lsm colMax
  rfl

end Cert.WCE.KBody

end
-- ==== Proof.KBlocks.lean ====
/-
  The input blocks of a grid point read in the argument arrays: tile t of the flattened pixel axis holds the
  pixels 4096 t + q, and the flattening of (h, w) is the row-major one.
-/
import proofs.«400182_j24893630447739_3_alg».proof.Proof.Gen.KernelIdeal.Frame
import proofs.«400182_j24893630447739_3_alg».proof.Proof.Spec
import Idealize.ShloMosaic.Lib.Pipeline.Value
import Idealize.ShloMosaic.Lib.ValueIdx
import Idealize.ShloMosaic.Lib.StableHlo.Run

noncomputable section

open scoped BigOperators

namespace Cert.WCE.KBlocks

open Idealize.ShloMosaic Idealize.ShloMosaic.TcCoe Idealize.SL.Sem Idealize.ShloMosaic.ValueIdx
open Cert.KernelIdeal Cert.KernelIdeal.Gen Cert.WCE

variable (m : (ℓ : Loc nD τ sig) → Buf (Elt Ideal) ℓ)

/-- The four arrays the loss reads, as launched on core c. -/
abbrev argP (c : Dev nD) : SPred.Idx → EReal := m ((c.tc : Thread nD τ).loc main_arg0)
abbrev argG (c : Dev nD) : SMask.Idx → BitVec 32 := m ((c.tc : Thread nD τ).loc main_arg1)
abbrev argM (c : Dev nD) : SMask.Idx → EReal := m ((c.tc : Thread nD τ).loc main_arg3)
abbrev argW (c : Dev nD) : SWt.Idx → EReal := m ((c.tc : Thread nD τ).loc main_arg4)

/-- A grid point is one of 192 tiles. -/
theorem lt192 (t : Fin cfg0.N) : t.val < 192 := lt_of_lt_of_eq t.isLt N_0

/-- The index maps of the three input windows over the grid (4, 48): point t reads batch t / 48, and along the
    flattened pixel axis tile t % 48. -/
private theorem idx0 : ∀ t : Fin cfg0.N, win0_0.index t 0 = t.val / 48 ∧ win0_0.index t 1 = 0 ∧ win0_0.index t 2 = t.val % 48 :=
  (by decide +kernel : ∀ t : Fin grid0.N, win0_0.index t 0 = t.val / 48 ∧ win0_0.index t 1 = 0 ∧ win0_0.index t 2 = t.val % 48)
private theorem idx1 : ∀ t : Fin cfg0.N, win0_1.index t 0 = t.val / 48 ∧ win0_1.index t 1 = 0 ∧ win0_1.index t 2 = t.val % 48 :=
  (by decide +kernel : ∀ t : Fin grid0.N, win0_1.index t 0 = t.val / 48 ∧ win0_1.index t 1 = 0 ∧ win0_1.index t 2 = t.val % 48)
private theorem idx2 : ∀ t : Fin cfg0.N, win0_2.index t 0 = t.val / 48 ∧ win0_2.index t 1 = 0 ∧ win0_2.index t 2 = t.val % 48 :=
  (by decide +kernel : ∀ t : Fin grid0.N, win0_2.index t 0 = t.val / 48 ∧ win0_2.index t 1 = 0 ∧ win0_2.index t 2 = t.val % 48)

/-- What the region finds in the three windows' arrays: the launched logits, bins and mask with (h, w) flattened. -/
private theorem V_v0 (c : Dev nD) : (V m c main_v0 : S4x150x196608.Idx → EReal)
    = shapeCast S4x150x196608 (argP m c) shapeCasts_S4x150x384x512_S4x150x196608 := by
  show StableHlo.after hostOps0 (fun b => m (c, b)) (Proc.devRef .tc main_v0) = _
  after_results
  rfl
private theorem V_v1 (c : Dev nD) : (V m c main_v1 : S4x1x196608.Idx → BitVec 32)
    = shapeCast S4x1x196608 (argG m c) shapeCasts_S4x1x384x512_S4x1x196608 := by
  show StableHlo.after hostOps0 (fun b => m (c, b)) (Proc.devRef .tc main_v1) = _
  after_results
  rfl
private theorem V_v2 (c : Dev nD) : (V m c main_v2 : S4x1x196608.Idx → EReal)
    = shapeCast S4x1x196608 (argM m c) shapeCasts_S4x1x384x512_S4x1x196608 := by
  show StableHlo.after hostOps0 (fun b => m (c, b)) (Proc.devRef .tc main_v2) = _
  after_results
  rfl

/-- The flattening (b, c', h, w) ↦ (b, c', 512 h + w) read at an index: the entry at (n / 196608, c', n % 196608) is
    pixel n's logit of class c', both sides having the same row-major position. -/
private theorem castP_apply (x : SPred.Idx → EReal) (j : S4x150x196608.Idx) (n : Fin 786432) (c' : Fin 150)
    (h0 : (j 0).val = n.val / 196608) (h1 : (j 1).val = c'.val) (h2 : (j 2).val = n.val % 196608) :
    shapeCast S4x150x196608 x shapeCasts_S4x150x384x512_S4x150x196608 j = x (pixP n c') := by
  refine shapeCast_apply x _ j (pixP n c') ?_
  rw [Shape.rowMajor_val_four, Shape.rowMajor_val_three]
  show (((n.val / 196608) * 150 + c'.val) * 384 + n.val / 512 % 384) * 512 + n.val % 512
    = ((j 0).val * 150 + (j 1).val) * 196608 + (j 2).val
  rw [h0, h1, h2]
  omega

/-- The same flattening of a one-channel array: the entry at (n / 196608, 0, n % 196608) is pixel n's. -/
private theorem castM_apply {α : Type} (x : SMask.Idx → α) (j : S4x1x196608.Idx) (n : Fin 786432)
    (h0 : (j 0).val = n.val / 196608) (h1 : (j 1).val = 0) (h2 : (j 2).val = n.val % 196608) :
    shapeCast S4x1x196608 x shapeCasts_S4x1x384x512_S4x1x196608 j = x (pixM n) := by
  refine shapeCast_apply x _ j (pixM n) ?_
  rw [Shape.rowMajor_val_four, Shape.rowMajor_val_three]
  show (((n.val / 196608) * 1 + 0) * 384 + n.val / 512 % 384) * 512 + n.val % 512
    = ((j 0).val * 1 + (j 1).val) * 196608 + (j 2).val
  rw [h0, h1, h2]
  omega

/-- The logits' block at point t, entry (c', q): the logit of class c' at pixel 4096 t + q. -/
theorem iblk0_apply (c : Dev nD) (t : Fin cfg0.N) (c' : Fin 150) (q : Fin 4096) :
    (iblk m c 0 t : Vec Ideal S1x150x4096 .f32) (ix3 (0 : Fin 1) c' q) = argP m c (pixP (flat ⟨t.val, lt192 t⟩ q) c') := by
  have ht := lt192 t
  have hq := q.isLt
  obtain ⟨i0, i1, i2⟩ := idx0 t
  unfold iblk
  rw [View.read_apply]
  show (V m c main_v0 : S4x150x196608.Idx → EReal) _ = _
  rw [V_v0]
  -- the block's entry sits in the array at (index × block size + coordinate) on each axis
  refine castP_apply _ _ _ _ ?_ ?_ ?_
  · show win0_0.index t 0 * 1 + 1 * 0 = (4096 * t.val + q.val) / 196608
    rw [i0]; omega
  · show win0_0.index t 1 * 150 + 1 * c'.val = c'.val
    rw [i1]; omega
  · show win0_0.index t 2 * 4096 + 1 * q.val = (4096 * t.val + q.val) % 196608
    rw [i2]; omega

/-- The bins' block at point t, entry q: the bin word of pixel 4096 t + q. -/
theorem iblk1_apply (c : Dev nD) (t : Fin cfg0.N) (q : Fin 4096) :
    (iblk m c 1 t : Vec Ideal S1x1x4096 .i32) (ix3 (0 : Fin 1) (0 : Fin 1) q) = argG m c (pixM (flat ⟨t.val, lt192 t⟩ q)) := by
  have ht := lt192 t
  have hq := q.isLt
  obtain ⟨i0, i1, i2⟩ := idx1 t
  unfold iblk
  rw [View.read_apply]
  show (V m c main_v1 : S4x1x196608.Idx → BitVec 32) _ = _
  rw [V_v1]
  refine castM_apply _ _ _ ?_ ?_ ?_
  · show win0_1.index t 0 * 1 + 1 * 0 = (4096 * t.val + q.val) / 196608
    rw [i0]; omega
  · show win0_1.index t 1 * 1 + 1 * 0 = 0
    rw [i1]
  · show win0_1.index t 2 * 4096 + 1 * q.val = (4096 * t.val + q.val) % 196608
    rw [i2]; omega

/-- The mask's block at point t, entry q: the mask value of pixel 4096 t + q. -/
theorem iblk2_apply (c : Dev nD) (t : Fin cfg0.N) (q : Fin 4096) :
    (iblk m c 2 t : Vec Ideal S1x1x4096 .f32) (ix3 (0 : Fin 1) (0 : Fin 1) q) = argM m c (pixM (flat ⟨t.val, lt192 t⟩ q)) := by
  have ht := lt192 t
  have hq := q.isLt
  obtain ⟨i0, i1, i2⟩ := idx2 t
  unfold iblk
  rw [View.read_apply]
  show (V m c main_v2 : S4x1x196608.Idx → EReal) _ = _
  rw [V_v2]
  refine castM_apply _ _ _ ?_ ?_ ?_
  · show win0_2.index t 0 * 1 + 1 * 0 = (4096 * t.val + q.val) / 196608
    rw [i0]; omega
  · show win0_2.index t 1 * 1 + 1 * 0 = 0
    rw [i1]
  · show win0_2.index t 2 * 4096 + 1 * q.val = (4096 * t.val + q.val) % 196608
    rw [i2]; omega

end Cert.WCE.KBlocks

end
-- ==== Proof.KAccum.lean ====
/-
  The output block after grid point n: the sum of the tile sums of the batch's tiles so far (the accumulation restarts
  at every 48th point), and so the result array after the run: batch b's block is the sum over its 48 tiles.
-/
import proofs.«400182_j24893630447739_3_alg».proof.Proof.KBody
import proofs.«400182_j24893630447739_3_alg».proof.Proof.KBlocks
import Idealize.ShloMosaic.Lib.Pipeline.Value

noncomputable section

open scoped BigOperators

namespace Cert.WCE.KAccum

open Idealize.ShloMosaic Idealize.ShloMosaic.TcCoe Idealize.SL.Sem Idealize.ShloMosaic.ValueIdx
open Idealize.ShloMosaic.Pipeline (Dat)
open Cert.KernelIdeal Cert.KernelIdeal.Gen Cert.WCE Cert.WCE.KBlocks

variable (m : (ℓ : Loc nD τ sig) → Buf (Elt Ideal) ℓ)

/-- One run of the body at point t over a block acc: the entry (k, c') gains tile t's sum. -/
private theorem step_apply (c : Dev nD) (t : Fin cfg0.N) (acc : Vec Ideal S1x150x150 .f32) (k c' : Fin 150) :
    (k0_pay2 (F := Ideal) (iblk m c 0 t) (iblk m c 2 t) (iblk m c 1 t) acc : Vec Ideal S1x150x150 .f32) (ix3 (0 : Fin 1) k c')
      = acc (ix3 (0 : Fin 1) k c') + tileSum (argP m c) (argG m c) (argM m c) k c' t.val := by
  refine (KBody.pay2_apply (iblk m c 0 t) (iblk m c 2 t) (iblk m c 1 t) acc k c').trans ?_
  congr 1
  unfold tileSum
  rw [dif_pos (lt192 t)]
  refine Finset.sum_congr rfl fun q _ => ?_
  rw [iblk1_apply m c t q, iblk2_apply m c t q]
  simp only [iblk0_apply m c t]
  rfl

/-- At a first tile of a batch the block's entry is that tile's sum alone. -/
private theorem first_apply (c : Dev nD) (t : Fin cfg0.N) (h0 : t.val % 48 = 0) (k c' : Fin 150) :
    (outsAt0 m c t.val t.isLt : Vec Ideal S1x150x150 .f32) (ix3 (0 : Fin 1) k c')
      = tileSum (argP m c) (argG m c) (argM m c) k c' t.val := by
  rw [outsAt0_A m c t h0]
  rw [KBody.out_A (F := Ideal) c (grid0.coords t) (ms0_0 t) (hs0_0 t) (ms0_1 t) (hs0_1 t) (ms0_2 t) (hs0_2 t) (ms0_3 t) (hs0_3 t)
    ((hcond0_0 t).mpr h0) (iblk m c 0 t) (iblk m c 1 t) (iblk m c 2 t)]
  rw [step_apply m c t (k0_pay1 (F := Ideal)) k c', KBody.pay1_apply, zero_add]

/-- At any other tile it is what the point before left plus this tile's sum. -/
private theorem next_apply (c : Dev nD) (t : Fin cfg0.N) (h0 : ¬t.val % 48 = 0) (k c' : Fin 150) :
    (outsAt0 m c t.val t.isLt : Vec Ideal S1x150x150 .f32) (ix3 (0 : Fin 1) k c')
      = (outsAt0 m c (t.val - 1) (Nat.lt_of_le_of_lt (Nat.sub_le _ _) t.isLt) : Vec Ideal S1x150x150 .f32) (ix3 (0 : Fin 1) k c')
        + tileSum (argP m c) (argG m c) (argM m c) k c' t.val := by
  rw [outsAt0_B m c t h0]
  rw [KBody.out_B (F := Ideal) c (grid0.coords t) (ms0_0 t) (hs0_0 t) (ms0_1 t) (hs0_1 t) (ms0_2 t) (hs0_2 t) (ms0_3 t) (hs0_3 t)
    (fun h => h0 ((hcond0_0 t).mp h)) (iblk m c 0 t) (iblk m c 1 t) (iblk m c 2 t)
    (outsAt0 m c (t.val - 1) (Nat.lt_of_le_of_lt (Nat.sub_le _ _) t.isLt))]
  exact step_apply m c t _ k c'

/-- After point n the block's entry (k, c') is the sum of the tile sums of tiles 48 ⌊n/48⌋ … n. -/
theorem outsAt_apply (c : Dev nD) (n : ℕ) (hn : n < cfg0.N) (k c' : Fin 150) :
    (outsAt0 m c n hn : Vec Ideal S1x150x150 .f32) (ix3 (0 : Fin 1) k c')
      = ∑ s ∈ Finset.range (n % 48 + 1), tileSum (argP m c) (argG m c) (argM m c) k c' (48 * (n / 48) + s) := by
  induction n with
  | zero =>
    refine (first_apply m c ⟨0, hn⟩ rfl k c').trans ?_
    simp
  | succ n ih =>
    by_cases h0 : (n + 1) % 48 = 0
    · refine (first_apply m c ⟨n + 1, hn⟩ h0 k c').trans ?_
      rw [h0, Finset.sum_range_one]
      congr 1
      show n + 1 = 48 * ((n + 1) / 48) + 0
      omega
    · refine (next_apply m c ⟨n + 1, hn⟩ h0 k c').trans ?_
      show (outsAt0 m c n _ : Vec Ideal S1x150x150 .f32) (ix3 (0 : Fin 1) k c') + _ = _
      rw [ih (Nat.lt_of_succ_lt hn)]
      have e1 : (n + 1) / 48 = n / 48 := by omega
      have e2 : (n + 1) % 48 = n % 48 + 1 := by omega
      rw [e1, e2, Finset.sum_range_succ _ (n % 48 + 1)]
      congr 2
      show n + 1 = 48 * (n / 48) + (n % 48 + 1)
      omega

/-- The result array's index map, decided over the grid: point t's block is batch ⌊t/48⌋'s, at (·, 0, 0). -/
private theorem idx3 : ∀ t : Fin cfg0.N, win0_3.index t (0 : Fin 3) = t.val / 48
    ∧ win0_3.index t (1 : Fin 3) = 0 ∧ win0_3.index t (2 : Fin 3) = 0 :=
  (by decide +kernel : ∀ t : Fin grid0.N, _)

/-- An index of the result array is in point t's block iff each coordinate is in the block's range on its axis. -/
private theorem mem_blk3 (t : Fin cfg0.N) (i : S4x150x150.Idx) :
    i ∈ ((cfg0.win 3).blk t).view.set ↔ ∀ a : Fin 3, win0_3.index t a * S1x150x150.size a ≤ (i a).val
      ∧ (i a).val < win0_3.index t a * S1x150x150.size a + S1x150x150.size a := by
  show i ∈ ((View.whole main_v3).slice (win0_3.rect t)).set ↔ _
  rw [View.set_slice_whole, Rect.mem_set_unit]
  exact Iff.rfl

/-- The last tile of a batch writes back the batch's block of the accumulated array. -/
private theorem flushed_eq (c : Dev nD) (t : Fin cfg0.N) (hf : (cfg0.win 3).flush t = true) :
    (dats m 0 c).flushed 3 t
      = ((cfg0.win 3).blk t).view.read (Elt Ideal) (accArr (argP m c) (argG m c) (argM m c)) := by
  have h47 : t.val % 48 = 47 := (flush0_3 t).mp hf
  have hN : t.val < 192 := lt192 t
  obtain ⟨e0, e1, e2⟩ := idx3 t
  show (cfg0.win 3).cut (grid0.coords t) ((dats m 0 c).after 3 t) = _
  rw [after0_3]
  funext y
  have hy0 : (y 0).val < 1 := (y 0).isLt
  obtain ⟨k', hk'⟩ : ∃ k' : Fin 150, k'.val = (y 1).val := ⟨⟨(y 1).val, (y 1).isLt⟩, rfl⟩
  obtain ⟨c', hc'⟩ : ∃ c' : Fin 150, c'.val = (y 2).val := ⟨⟨(y 2).val, (y 2).isLt⟩, rfl⟩
  have hemb : ((cfg0.win 3).blk t).view.emb y = (ix3 (⟨t.val / 48, by omega⟩ : Fin 4) k' c' : S4x150x150.Idx) := by
    funext a; apply Fin.ext
    match a with
    | ⟨0, _⟩ => show win0_3.index t (0 : Fin 3) * 1 + 1 * (y 0).val = t.val / 48; omega
    | ⟨1, _⟩ => show win0_3.index t (1 : Fin 3) * 150 + 1 * (y 1).val = k'.val; omega
    | ⟨2, _⟩ => show win0_3.index t (2 : Fin 3) * 150 + 1 * (y 2).val = c'.val; omega
  have hy : y = (ix3 (0 : Fin 1) k' c' : S1x150x150.Idx) := by
    funext a; apply Fin.ext
    match a with
    | ⟨0, _⟩ => show (y 0).val = 0; omega
    | ⟨1, _⟩ => exact hk'.symm
    | ⟨2, _⟩ => exact hc'.symm
  rw [View.read_apply, hemb]
  show (outsAt0 m c t.val t.isLt : Vec Ideal S1x150x150 .f32) y = _
  rw [hy, outsAt_apply m c t.val t.isLt k' c', h47]
  rfl

/-- The result array of the region after the run: batch b's block holds the sums over its 48 tiles. -/
theorem final3 (c : Dev nD) :
    (dats m 0 c).arrAt 3 cfg0.N = accArr (argP m c) (argG m c) (argM m c) :=
  (dats m 0 c).arrAt_eq_of_cover 3 (accArr (argP m c) (argG m c) (argM m c)) (flushed_eq m c) fun i => by
    have hi0 : (i 0).val < 4 := (i 0).isLt
    have hi1 : (i 1).val < 150 := (i 1).isLt
    have hi2 : (i 2).val < 150 := (i 2).isLt
    have hlt : 48 * (i 0).val + 47 < cfg0.N := by rw [show cfg0.N = 192 from N_0]; omega
    obtain ⟨e0, e1, e2⟩ := idx3 ⟨48 * (i 0).val + 47, hlt⟩
    refine ⟨⟨48 * (i 0).val + 47, hlt⟩, (flush0_3 _).mpr (by show (48 * (i 0).val + 47) % 48 = 47; omega), ?_⟩
    rw [mem_blk3]
    intro a
    match a with
    | ⟨0, _⟩ =>
      show win0_3.index ⟨48 * (i 0).val + 47, hlt⟩ (0 : Fin 3) * 1 ≤ (i 0).val
        ∧ (i 0).val < win0_3.index ⟨48 * (i 0).val + 47, hlt⟩ (0 : Fin 3) * 1 + 1
      rw [e0]; show (48 * (i 0).val + 47) / 48 * 1 ≤ (i 0).val ∧ (i 0).val < (48 * (i 0).val + 47) / 48 * 1 + 1; omega
    | ⟨1, _⟩ =>
      show win0_3.index ⟨48 * (i 0).val + 47, hlt⟩ (1 : Fin 3) * 150 ≤ (i 1).val
        ∧ (i 1).val < win0_3.index ⟨48 * (i 0).val + 47, hlt⟩ (1 : Fin 3) * 150 + 150
      rw [e1]; omega
    | ⟨2, _⟩ =>
      show win0_3.index ⟨48 * (i 0).val + 47, hlt⟩ (2 : Fin 3) * 150 ≤ (i 2).val
        ∧ (i 2).val < win0_3.index ⟨48 * (i 0).val + 47, hlt⟩ (2 : Fin 3) * 150 + 150
      rw [e2]; omega

end Cert.WCE.KAccum

end
-- ==== Proof.KTail.lean ====
/-
  The kernel program's result: the host lines after the region applied to the region's result array — the batch
  sum of the accumulated blocks against the weight table, summed, negated, and divided by the count of pixels whose mask
  is positive.
-/
import proofs.«400182_j24893630447739_3_alg».proof.Proof.KAccum
import Idealize.ShloMosaic.Lib.Pipeline.Value
import Idealize.ShloMosaic.Lib.StableHlo.Run
import Idealize.ShloMosaic.PureOps.Ideal.Laws

noncomputable section

open scoped BigOperators

namespace Cert.WCE.KTail

open Idealize.ShloMosaic Idealize.ShloMosaic.TcCoe Idealize.SL.Sem Idealize.ShloMosaic.ValueIdx
open Idealize.ShloMosaic.Pipeline (Dat)
open Cert.KernelIdeal Cert.KernelIdeal.Gen Cert.WCE Cert.WCE.KBlocks

/-- The numerator as the host lines compute it from the region's result array and the weight table. -/
def kNum (OUT : FVec Ideal S4x150x150 .f32) (W : FVec Ideal S150x150 .f32) : FVec Ideal S_ .f32 :=
  Host.reduceAdd (mulf W (Host.reduceAdd OUT (constant S_ .f32 0x00000000#32) reducesTo_S4x150x150_S150x150_d0 h_S_))
    (constant S_ .f32 0x00000000#32) reducesTo_S150x150_S_d0_1 h_S_

/-- The count of pixels whose mask is positive, as a word. -/
def kCnt (Mk : FVec Ideal S4x1x384x512 .f32) : IVec S_ 32 :=
  Host.reduce IntOp.addi
    (extui 32 (cmpf .ogt Mk (broadcastInDim S4x1x384x512 ![] bcast_S_S4x1x384x512 (constant S_ .f32 0x00000000#32))) natLt_1_32)
    (constantI S_ 32 0#32) reducesTo_S4x1x384x512_S_d0_1_2_3 h_S_

/-- The program's result from the region's result array, the mask and the weight table. -/
def kres (OUT : FVec Ideal S4x150x150 .f32) (Mk : FVec Ideal S4x1x384x512 .f32) (W : FVec Ideal S150x150 .f32) :
    FVec Ideal S_ .f32 :=
  Host.divf (Host.negf (kNum OUT W)) (sitofp .f32 (kCnt Mk))

/-- The numerator at its one index: over (k, c), the weight against the batch sum of the accumulated entry. -/
theorem kNum_apply (OUT : FVec Ideal S4x150x150 .f32) (W : FVec Ideal S150x150 .f32) (i : S_.Idx) :
    kNum OUT W i = (0 : EReal) + ∑ k : Fin 150, ∑ c : Fin 150, W (ix2 k c) * ((0 : EReal) + ∑ b : Fin 4, OUT (ix3 b k c)) := by
  unfold kNum
  simp only [Host.reduceAdd, Ideal.hostReduceAdd_def]
  rw [Ideal.hostReduceAdd_total reducesTo_S150x150_S_d0_1 (fun b => b.elim0), ValueIdx.sum_idx2]
  simp only [constant_apply, Ideal.ofBits_zero_f32]
  refine congrArg (_ + ·) (Finset.sum_congr rfl fun k _ => Finset.sum_congr rfl fun c _ => ?_)
  rw [mulf_apply]
  refine congrArg (W (ix2 k c) * ·) ?_
  rw [Ideal.hostReduceAdd_single reducesTo_S4x150x150_S150x150_d0 (by decide)]
  refine congrArg (_ + ·) (Finset.sum_congr rfl fun b _ => ?_)
  exact congrArg OUT (funext fun a => Fin.ext (by match a with | ⟨0, _⟩ => rfl | ⟨1, _⟩ => rfl | ⟨2, _⟩ => rfl))

/-- What the host lines after the region leave in the result buffer: `kres` of the accumulated array, the mask and
    the weight table. The lines read the region's result array (the pipeline's fourth array, at what the region left
    there) and the two arguments, which no line before or inside the region writes. -/
private theorem tail_v13 (m : (ℓ : Loc nD τ sig) → Buf (Elt Ideal) ℓ) (c : Dev nD) :
    Pipeline.afterTail₀ cfgs (dats m) 0 (V0 m) [hostOps1] c main_v13
      = kres (accArr (argP m c) (argG m c) (argM m c)) (argM m c) (argW m c) := by
  have hOUT : Pipeline.withArrays (cfgs 0).spec c (V0 m c) (fun w => (dats m 0 c).arrAt w (cfgs 0).N) (Proc.devRef .tc main_v3)
      = accArr (argP m c) (argG m c) (argM m c) :=
    (Pipeline.withArrays_arr spec0 launch0.win.arr_inj c _ _ 3).trans (KAccum.final3 m c)
  have hM : Pipeline.withArrays (cfgs 0).spec c (V0 m c) (fun w => (dats m 0 c).arrAt w (cfgs 0).N) (Proc.devRef .tc main_arg3)
      = argM m c :=
    (Pipeline.withArrays_of_ne _ c (V0 m c) _ main_arg3 (by exact (by decide : ∀ w, Pipeline.arrRef spec0 w ≠ main_arg3))).trans
      (V_main_arg3 m c)
  have hW : Pipeline.withArrays (cfgs 0).spec c (V0 m c) (fun w => (dats m 0 c).arrAt w (cfgs 0).N) (Proc.devRef .tc main_arg4)
      = argW m c :=
    (Pipeline.withArrays_of_ne _ c (V0 m c) _ main_arg4 (by exact (by decide : ∀ w, Pipeline.arrRef spec0 w ≠ main_arg4))).trans
      (V_main_arg4 m c)
  unfold Pipeline.afterTail₀
  show StableHlo.after hostOps1 _ (Proc.devRef .tc main_v13) = _
  after_results
  rw [hOUT, hM, hW]
  generalize accArr (argP m c) (argG m c) (argM m c) = OUT
  generalize argM m c = Mk
  generalize argW m c = Wt
  rfl

/-- The run of the kernel program, read: its result at `kres` of the accumulated array, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13) = kres (accArr (argP m c) (argG m c) (argM m c)) (argM m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v13 (Pipeline.mem_restRefs_of main_v13 (by decide) (by decide))).trans (tail_v13 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.WCE.KTail

end
-- ==== Proof.LibRows.lean ====
/-
  General lemmas: jnp's row take `x[idx, :]` and row accumulation `zeros.at[idx].add(u)` read at an index.

  `Host.gather` with offset_dims [1], collapsed_slice_dims [0], start_index_map [0], index_vector_dim 1 and
  slice sizes [1, C], over an operand [N, C] and start indices [K, 1], reads at (k, c) the operand's row
  idx[k, 0] (read signed, clamped into [0, N − 1]) at column c.
  The host's float scatter with an add body at the ideal values (`Ideal.hostScatterAdd`), with
  inserted_window_dims [0], scatter_dims_to_operand_dims [0], index_vector_dim 1 over indices [K, 1]:
  into a vector [N] from updates [K] (no window axis), and into an array [N, C] from updates [K, C]
  (update_window_dims [1]): entry i (resp. (i, c)) is the operand's plus the sum of the updates k
  (resp. (k, c)) whose index word idx[k, 0], read signed, is i.
-/
import Idealize.ShloMosaic.PureOps.Ideal
import Idealize.ShloMosaic.Lib.ValueIdx
import Idealize.ShloMosaic.Lib.ValueIdxRank1

noncomputable section

open scoped BigOperators

namespace Cert.Lib.Rows

open Idealize.ShloMosaic Idealize.ShloMosaic.ValueIdx

/-- The dimension numbers of a row take: operand [N, C], start indices [K, 1], result [K, C]. -/
abbrev gatherDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (k, c): the operand at row idx[k, 0], read signed and clamped into [0, N − 1], column c. -/
theorem gather_rows_apply {α : Type} {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (c : Fin C) :
    Host.gather (gatherDims N C K wf) x idx (ix2 k c)
      = x (ix2 ⟨min (idx (ix2 k (0 : Fin 1))).toInt.toNat (N - 1), by omega⟩ c) := by
  unfold Host.gather
  congr 1
  funext a
  refine Fin.ext ?_
  match a with
  | ⟨0, _⟩ =>
    -- the collapsed axis: the clamped start index, no batching and no offset coordinate
    show (gatherDims N C K wf).start (ix2 k c) idx 0 + (gatherDims N C K wf).batchCoord (ix2 k c) 0
      + (gatherDims N C K wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C K wf).startIndexMap from List.mem_singleton.mpr rfl)]
    have hsi : (gatherDims N C K wf).siIdx (ix2 k c) ⟨List.idxOf (0 : Fin 2) (gatherDims N C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    -- the offset axis: start 0, no batching coordinate, the result's column
    show (gatherDims N C K wf).start (ix2 k c) idx 1 + (gatherDims N C K wf).batchCoord (ix2 k c) 1
      + (gatherDims N C K wf).offCoord (ix2 k c) 1 = c.val
    rw [GatherDims.batchCoord_eq_zero _ _ _ List.not_mem_nil]
    have hst : (gatherDims N C K wf).start (ix2 k c) idx 1 = 0 := by
      unfold GatherDims.start
      rw [dif_neg (show (1 : Fin 2) ∉ (gatherDims N C K wf).startIndexMap from by
        intro h; exact Nat.one_ne_zero (congrArg Fin.val (List.mem_singleton.mp h)))]
    have hoff : (gatherDims N C K wf).offCoord (ix2 k c) 1 = c.val := by
      unfold GatherDims.offCoord
      rw [dif_pos (show (1 : Fin 2) ∈ (gatherDims N C K wf).sKept from
        (GatherDims.mem_sKept _ _).mpr ⟨fun h => Nat.one_ne_zero (congrArg Fin.val (List.mem_singleton.mp h)), List.not_mem_nil⟩)]
      rfl
    rw [hst, hoff]; simp

/-- An update lands at `i` exactly when, on every axis, its start plus its window coordinate is `i`'s coordinate,
    as integers (which forces the landing index into range on that axis). -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hr
      have hv : (d.start j idx a + (d.window j a : Int)).toNat = (i a).val :=
        congrArg Fin.val (congrFun (Option.some.inj h) a)
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    show (d.start j idx a + (d.window j a : Int)).toNat = (i a).val
    have := h a
    omega

/-- A sum over a rank-1 index set is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulation into a vector [N] from updates [K] at indices [K, 1]. -/
abbrev scatterVecDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- On the vector's one axis the start of update k is its index word idx[k, 0], read signed. -/
private theorem vec_start {N K w : Nat}
    (wf : ScatterDims.WF ⟨1, ![N]⟩ ⟨2, ![K, 1]⟩ ⟨1, ![K]⟩ [] [0] [0] 1)
    (idx : IVec ⟨2, ![K, 1]⟩ w) (k : Fin K) :
    (scatterVecDims N K wf).start (ix1 k) idx (0 : Fin 1) = (idx (ix2 k (0 : Fin 1))).toInt := by
  unfold ScatterDims.start
  rw [dif_pos (show (0 : Fin 1) ∈ (scatterVecDims N K wf).scatterDimsToOperandDims from List.mem_singleton.mpr rfl)]
  have hsi : (scatterVecDims N K wf).siIdx (ix1 k)
      ⟨List.idxOf (0 : Fin 1) (scatterVecDims N K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The vector's one axis is an inserted window axis: no window coordinate. -/
private theorem vec_window {N K : Nat}
    (wf : ScatterDims.WF ⟨1, ![N]⟩ ⟨2, ![K, 1]⟩ ⟨1, ![K]⟩ [] [0] [0] 1) (k : Fin K) :
    (scatterVecDims N K wf).window (ix1 k) (0 : Fin 1) = 0 := rfl

/-- Update k lands at entry i exactly when its index word, read signed, is i. -/
private theorem vec_resultIdx? {N K w : Nat}
    (wf : ScatterDims.WF ⟨1, ![N]⟩ ⟨2, ![K, 1]⟩ ⟨1, ![K]⟩ [] [0] [0] 1)
    (idx : IVec ⟨2, ![K, 1]⟩ w) (k : Fin K) (i : Fin N) :
    (scatterVecDims N K wf).resultIdx? (ix1 k) idx = some (ix1 i)
      ↔ (idx (ix2 k (0 : Fin 1))).toInt = (i.val : Int) := by
  rw [resultIdx?_eq_some_iff]
  constructor
  · intro h
    have h0 := h (0 : Fin 1)
    rw [vec_start, vec_window] at h0
    simpa using h0
  · intro h a
    obtain rfl : a = (0 : Fin 1) := Subsingleton.elim _ _
    rw [vec_start, vec_window]
    simpa using h

/-- Entry i of the accumulated vector: the operand's plus the updates whose index word is i. -/
theorem hostScatterAdd_vec_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal) (i : Fin N) :
    Ideal.hostScatterAdd (scatterVecDims N K wf) x idx upd (ix1 i)
      = x (ix1 i) + ∑ k : Fin K, if (idx (ix2 k (0 : Fin 1))).toInt = (i.val : Int) then upd (ix1 k) else 0 := by
  unfold Ideal.hostScatterAdd
  refine congrArg (x (ix1 i) + ·) ?_
  rw [Finset.sum_filter, sum_idx1]
  refine Finset.sum_congr rfl fun k _ => ?_
  exact if_congr (vec_resultIdx? wf idx k i) rfl rfl

/-- The dimension numbers of an accumulation of rows into [N, C] from updates [K, C] at indices [K, 1]. -/
abbrev scatterRowsDims (N C K : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

/-- On the row axis the start of update (k, c') is its index word idx[k, 0], read signed. -/
private theorem rows_start0 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (0 : Fin 2) = (idx (ix2 k (0 : Fin 1))).toInt := by
  unfold ScatterDims.start
  rw [dif_pos (show (0 : Fin 2) ∈ (scatterRowsDims N C K wf).scatterDimsToOperandDims from List.mem_singleton.mpr rfl)]
  have hsi : (scatterRowsDims N C K wf).siIdx (ix2 k c')
      ⟨List.idxOf (0 : Fin 2) (scatterRowsDims N C K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The column axis is not named by the index map: its start is 0. -/
private theorem rows_start1 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (1 : Fin 2) = 0 := by
  unfold ScatterDims.start
  rw [dif_neg (show (1 : Fin 2) ∉ (scatterRowsDims N C K wf).scatterDimsToOperandDims from fun h =>
    Nat.one_ne_zero (congrArg Fin.val (List.mem_singleton.mp h)))]

/-- The row axis is an inserted window axis: no window coordinate. -/
private theorem rows_window0 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (0 : Fin 2) = 0 := rfl

/-- The column axis carries the update's window axis: the window coordinate is the update's column. -/
private theorem rows_window1 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (1 : Fin 2) = c'.val := rfl

/-- Update (k, c') lands at entry (i, c) exactly when its index word, read signed, is i and its column is c. -/
private theorem rows_resultIdx? {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) (i : Fin N) (c : Fin C) :
    (scatterRowsDims N C K wf).resultIdx? (ix2 k c') idx = some (ix2 i c)
      ↔ (idx (ix2 k (0 : Fin 1))).toInt = (i.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    have h0' : (idx (ix2 k (0 : Fin 1))).toInt + ((0 : Nat) : Int) = (i.val : Int) := h0
    have h1' : (0 : Int) + (c'.val : Int) = (c.val : Int) := h1
    exact ⟨by omega, Fin.ext (by omega)⟩
  · rintro ⟨h, rfl⟩ a
    match a with
    | ⟨0, _⟩ =>
      show (scatterRowsDims N C K wf).start (ix2 k c') idx (0 : Fin 2)
        + ((scatterRowsDims N C K wf).window (ix2 k c') (0 : Fin 2) : Int) = (i.val : Int)
      rw [rows_start0, rows_window0]
      omega
    | ⟨1, _⟩ =>
      show (scatterRowsDims N C K wf).start (ix2 k c') idx (1 : Fin 2)
        + ((scatterRowsDims N C K wf).window (ix2 k c') (1 : Fin 2) : Int) = (c'.val : Int)
      rw [rows_start1, rows_window1]
      omega

/-- Entry (i, c) of the accumulated array: the operand's plus the updates (k, c) whose index word is i. -/
theorem hostScatterAdd_rows_apply {N C K w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (c : Fin C) :
    Ideal.hostScatterAdd (scatterRowsDims N C K wf) x idx upd (ix2 i c)
      = x (ix2 i c) + ∑ k : Fin K, if (idx (ix2 k (0 : Fin 1))).toInt = (i.val : Int) then upd (ix2 k c) else 0 := by
  unfold Ideal.hostScatterAdd
  refine congrArg (x (ix2 i c) + ·) ?_
  rw [Finset.sum_filter, sum_idx2]
  refine Finset.sum_congr rfl fun k _ => ?_
  simp only [rows_resultIdx?]
  by_cases h : (idx (ix2 k (0 : Fin 1))).toInt = (i.val : Int)
  · -- the row matches: of the columns only c' = c survives
    simp only [h, true_and, if_true]
    rw [Finset.sum_ite_eq' Finset.univ c (fun c' => upd (ix2 k c'))]
    simp
  · -- the row does not match: every term is 0
    simp only [h, false_and, if_false]
    exact Finset.sum_const_zero

end Cert.Lib.Rows

end
-- ==== Proof.RefValue.lean ====
/-
  The reference's numerator read pixel by pixel: with every bin below 150 the gathered weight row is the bin's own
  row, the log-softmax is the column's, and the reshapes read the arrays row-major.
-/
import proofs.«400182_j24893630447739_3_alg».proof.Proof.RefRead
import proofs.«400182_j24893630447739_3_alg».proof.Proof.LibRows
import proofs.«400182_j24893630447739_3_alg».proof.Proof.Spec
import Idealize.ShloMosaic.Lib.Pipeline.Value
import Idealize.ShloMosaic.Lib.ValueIdx
import Idealize.ShloMosaic.PureOps.Ideal.Laws

noncomputable section

open scoped BigOperators

namespace Cert.WCE.RefValue

open Idealize.ShloMosaic Idealize.ShloMosaic.TcCoe Idealize.SL.Sem Idealize.ShloMosaic.ValueIdx
open Cert.ReferenceIdeal Cert.ReferenceIdeal.Gen Cert.ReferenceIdeal.Read Cert.WCE

/-- A bin word below 150 is not negative as a signed word, so the start index the reference makes of it is the word,
    and clamping it into [0, 149] leaves its class. -/
private theorem start_word (g : BitVec 32) (h : g.toNat < 150) :
    min (Scalar.select (IntOp.cmpi .slt g 0#32) (IntOp.addi g 150#32) g).toInt.toNat (150 - 1) = g.toNat % 150 := by
  have hi : g.toInt = (g.toNat : Int) := by
    rw [BitVec.toInt_eq_toNat_cond, if_pos (by omega)]
  have hs : g.slt 0#32 = false := by
    rw [BitVec.slt, hi]; simp
  have hc : IntOp.cmpi .slt g 0#32 = 0#1 := by
    show BitVec.ofBool (g.slt 0#32) = 0#1
    rw [hs]; rfl
  rw [hc, select_zero, hi]
  simp only [Int.toNat_natCast]
  omega

/-- The logits' array read through the reshape and the transpose at (n, c): pixel n's logit of class c. -/
private theorem idx_pred (n : Fin 786432) (c : Fin 150) : idx_main_v1 (idx_main_v2 (ix2 n c)) = pixP n c := by
  have hn := n.isLt
  have hc := c.isLt
  funext a
  refine Fin.ext ?_
  match a with
  | ⟨0, _⟩ => show (n.val * 150 + c.val) / 29491200 = n.val / 196608; omega
  | ⟨1, _⟩ => show (n.val * 150 + c.val) % 150 = c.val; omega
  | ⟨2, _⟩ => show (n.val * 150 + c.val) / 76800 % 384 = n.val / 512 % 384; omega
  | ⟨3, _⟩ => show (n.val * 150 + c.val) / 150 % 512 = n.val % 512; omega

/-- The mask's array read through its reshape and the broadcast along the classes at (n, c): pixel n's mask value. -/
private theorem idx_mask14 (n : Fin 786432) (c : Fin 150) : idx_main_v3 (idx_main_v14 (ix2 n c)) = pixM n := by
  have hn := n.isLt
  funext a
  refine Fin.ext ?_
  match a with
  | ⟨0, _⟩ => show (n.val * 1 + 0) / 196608 = n.val / 196608; omega
  | ⟨1, _⟩ => rfl
  | ⟨2, _⟩ => show (n.val * 1 + 0) / 512 % 384 = n.val / 512 % 384; omega
  | ⟨3, _⟩ => show (n.val * 1 + 0) % 512 = n.val % 512; omega

private theorem idx_mask4 (n : Fin 786432) (c : Fin 150) : idx_main_v3 (idx_main_v4 (ix2 n c)) = pixM n :=
  idx_mask14 n c

/-- The bins' array read through its reshape at n: pixel n's bin word. -/
private theorem idx_bin (n : Fin 786432) : idx_main_v6 (idx_main_v12 (ix2 n (0 : Fin 1))) = pixM n := by
  funext a
  refine Fin.ext ?_
  match a with
  | ⟨0, _⟩ => rfl
  | ⟨1, _⟩ => rfl
  | ⟨2, _⟩ => rfl
  | ⟨3, _⟩ => rfl

/-- Pixel n without its class coordinate, as an index of the reduced arrays. -/
private abbrev pix3 (n : Fin 786432) : S4x384x512.Idx := ix3 (bOf n) (hOf n) (wOf n)

/-- The two broadcasts of a reduced array read pixel n's entry at every class. -/
private theorem idx_b34 (n : Fin 786432) (k : Fin 150) :
    idx_main_call0_v3 (idx_main_call0_v4 (pixP n k)) = pix3 n := by
  funext a
  refine Fin.ext ?_
  match a with
  | ⟨0, _⟩ => rfl
  | ⟨1, _⟩ => rfl
  | ⟨2, _⟩ => rfl

private theorem idx_b810 (n : Fin 786432) (k : Fin 150) :
    idx_main_call0_v8 (idx_main_call0_v10 (pixP n k)) = pix3 n := idx_b34 n k

/-- The class axis put back at pixel n is the pixel's column. -/
private theorem idx_col (n : Fin 786432) (k : Fin 150) : idx_main_call0_v7 (pix3 n) k = pixP n k := by
  funext a
  refine Fin.ext ?_
  match a with
  | ⟨0, _⟩ => rfl
  | ⟨1, _⟩ => rfl
  | ⟨2, _⟩ => rfl
  | ⟨3, _⟩ => rfl

private theorem lift_col (h : S4x150x384x512.Reduces [1] S4x384x512) (n : Fin 786432)
    (k : Fin (S4x150x384x512.size 1)) : h.lift (pix3 n) k = pixP n (⟨k.val, k.isLt⟩ : Fin 150) := by
  funext c
  apply Fin.ext
  fin_cases c <;> rfl

/-- The word of −∞. -/
private theorem ofBits_neg_inf : Ideal.ofBits .f32 0xFF800000#32 = (⊥ : EReal) := by
  simp [Ideal.ofBits, Ideal.ieee]

/-- The maximum reduce over the classes, at pixel n, is the column's maximum from −∞. -/
private theorem max_at (P : FVec Ideal S4x150x384x512 .f32) (n : Fin 786432) :
    val_main_call0_v0 (F := Ideal) P (pix3 n) = colMax (fun c' => P (pixP n c')) := by
  unfold val_main_call0_v0
  rw [Host.reduce_eq_fold_single FloatOps.maximumf P _ reducesTo_S4x150x384x512_S4x384x512_d1 (by decide) h_S_]
  rw [val_main_call0_cst_apply, Ideal.ofBits_def, ofBits_neg_inf]
  have hf : (P ∘ (by decide : S4x150x384x512.Reduces [1] S4x384x512).lift (pix3 n))
      = fun k : Fin 150 => P (pixP n k) := funext fun k => congrArg P (lift_col _ n k)
  unfold colMax
  exact congrArg (fun f => Finset.fold max (⊥ : EReal) f (Finset.univ : Finset (Fin 150))) hf

/-- The broadcast maximum at pixel n and any class is the column's maximum. -/
private theorem bmax_at (P : FVec Ideal S4x150x384x512 .f32) (n : Fin 786432) (k : Fin 150) :
    val_main_call0_v4 (F := Ideal) P (pixP n k) = colMax (fun c' => P (pixP n c')) := by
  rw [val_main_call0_v4_apply, val_main_call0_v3_apply, idx_b34, val_main_call0_v2_apply,
    val_main_call0_v1_apply, val_main_call0_cst_0_apply, Ideal.ofBits_def, ofBits_neg_inf, max_at]
  exact max_bot_left _

/-- The logit less the column's maximum, at pixel n and class k. -/
private theorem shifted_at (P : FVec Ideal S4x150x384x512 .f32) (n : Fin 786432) (k : Fin 150) :
    val_main_call0_v5 (F := Ideal) P (pixP n k) = P (pixP n k) - colMax (fun c' => P (pixP n c')) := by
  rw [val_main_call0_v5_apply, bmax_at]
  rfl

/-- The reference's log-softmax at pixel n and class c is the column's. -/
private theorem lsm_at (P : FVec Ideal S4x150x384x512 .f32) (n : Fin 786432) (c : Fin 150) :
    val_main_v0 (F := Ideal) P (pixP n c) = lp P n c := by
  rw [val_main_v0_apply, shifted_at, val_main_call0_v10_apply, val_main_call0_v9_apply, val_main_call0_v8_apply,
    idx_b810, val_main_call0_v7_apply, val_main_call0_cst_1_apply, Ideal.ofBits_def, Ideal.ofBits_zero_f32, zero_add]
  have hs : (∑ k : Fin 150, val_main_call0_v6 (F := Ideal) P (idx_main_call0_v7 (pix3 n) k))
      = ∑ k : Fin 150, Ideal.exp (P (pixP n k) - colMax (fun c' => P (pixP n c'))) :=
    Finset.sum_congr rfl fun k _ => by
      rw [idx_col, val_main_call0_v6_apply, shifted_at]
      rfl
  rw [hs]
  rfl

/-- The gathered weight row at pixel n is the row of the pixel's bin. -/
private theorem gather_at (Gb : IVec S4x1x384x512 32) (W : FVec Ideal S150x150 .f32) (hG : ∀ i, (Gb i).toNat < 150)
    (n : Fin 786432) (c : Fin 150) :
    val_main_v13 (F := Ideal) Gb W (ix2 n c) = W (ix2 (cls (bin Gb n)) c) := by
  unfold val_main_v13
  have hd : gather_S150x150_S786432x1_S786432x150_1_0_n_n_0_1_1150
      = Cert.Lib.Rows.gatherDims 150 150 786432 gather_S150x150_S786432x1_S786432x150_1_0_n_n_0_1_1150_wf := rfl
  rw [hd, Cert.Lib.Rows.gather_rows_apply (by decide)]
  refine congrArg W (congrArg (fun r => ix2 r c) (Fin.ext ?_))
  show min (val_main_v12 (F := Ideal) Gb (ix2 n (0 : Fin 1))).toInt.toNat (150 - 1) = (Gb (pixM n)).toNat % 150
  rw [val_main_v12_apply, val_main_v11_apply, val_main_v8_apply, val_main_v10_apply, val_main_v6_apply, idx_bin,
    val_main_v7_apply, val_main_v9_apply, val_main_c_apply, val_main_c_0_apply]
  exact start_word _ (hG _)

/-- One term of the reference's sum. -/
private theorem term_at (P : FVec Ideal S4x150x384x512 .f32) (Gb : IVec S4x1x384x512 32) (Mk : FVec Ideal S4x1x384x512 .f32)
    (W : FVec Ideal S150x150 .f32) (hG : ∀ i, (Gb i).toNat < 150) (n : Fin 786432) (c : Fin 150) :
    val_main_v21 (F := Ideal) P Gb Mk W (ix2 n c)
      = (W (ix2 (cls (bin Gb n)) c) * mu Mk n) * (lp P n c * mu Mk n) := by
  rw [val_main_v21_apply, val_main_v15_apply, val_main_v5_apply, gather_at Gb W hG, val_main_v14_apply, val_main_v3_apply,
    idx_mask14, val_main_v4_apply, val_main_v3_apply, idx_mask4, val_main_v2_apply, val_main_v1_apply, idx_pred, lsm_at]
  rfl

/-- The reference's sum is the numerator of the specification, from 0. -/
theorem ref_num (P : FVec Ideal S4x150x384x512 .f32) (Gb : IVec S4x1x384x512 32) (Mk : FVec Ideal S4x1x384x512 .f32)
    (W : FVec Ideal S150x150 .f32) (hG : ∀ i, (Gb i).toNat < 150) (i : S_.Idx) :
    val_main_v22 (F := Ideal) P Gb Mk W i = (0 : EReal) + numer P Gb Mk W := by
  rw [val_main_v22_apply, val_main_cst_2_apply, Ideal.ofBits_def, Ideal.ofBits_zero_f32, sum_idx2]
  unfold numer
  exact congrArg ((0 : EReal) + ·)
    (Finset.sum_congr rfl fun n _ => Finset.sum_congr rfl fun c _ => term_at P Gb Mk W hG n c)

end Cert.WCE.RefValue

end
-- ==== Proof.PreFacts.lean ====
/-
  What the precondition says of the arrays: every logit, mask value and weight is a real number, and every bin word is
  below 150.
-/
import proofs.«400182_j24893630447739_3_alg».proof.Pre_finite_inputs
import proofs.«400182_j24893630447739_3_alg».proof.Proof.Gen.Pre_finite_inputs
import proofs.«400182_j24893630447739_3_alg».proof.Proof.Spec
import Idealize.ShloMosaic.Lib.ReduceAll
import Idealize.ShloMosaic.Lib.ValueIdx
import Idealize.ShloMosaic.Lib.StableHlo.Predicate

noncomputable section

open scoped BigOperators

namespace Cert.WCE.PreFacts

open Idealize.ShloMosaic Idealize.ShloMosaic.ValueIdx
open Cert.Pre_finite_inputs Cert.Pre_finite_inputs.Gen Cert.WCE

private instance subsingleton_scalar_idx : Subsingleton S_.Idx := ⟨fun a b => funext fun d => d.elim0⟩

/-- An extended real whose absolute value is below +∞ is a real number: at −∞ and at +∞ the absolute value is +∞. -/
private theorem real_of_abs_lt_inf (a : Ideal .f32)
    (h : FloatOps.cmpf .olt (FloatOps.absf a) (FloatOps.ofBits (F := Ideal) .f32 0x7F800000#32) = 1#1) :
    ∃ r : ℝ, a = (r : EReal) := by
  have htop : Ideal.ofBits .f32 0x7F800000#32 = ⊤ := by simp [Ideal.ofBits, Ideal.ieee]
  change Ideal.cmp .olt (max a (-a)) (Ideal.ofBits .f32 0x7F800000#32) = 1#1 at h
  rw [htop] at h
  induction a using EReal.rec with
  | bot => simp [Ideal.cmp] at h
  | top => simp [Ideal.cmp] at h
  | coe r => exact ⟨r, rfl⟩

/-- A word that is at least 0 and below 150 as a signed number is below 150 as a natural number. -/
private theorem toNat_lt_of_signed (g : BitVec 32) (h0 : IntOp.cmpi .sge g 0#32 = 1#1) (h1 : IntOp.cmpi .slt g 150#32 = 1#1) :
    g.toNat < 150 := by
  rw [IntOp.cmpi_sge] at h0
  rw [IntOp.cmpi_slt] at h1
  have e0 : (0#32 : BitVec 32).toInt = 0 := by decide
  have e1 : (150#32 : BitVec 32).toInt = 150 := by decide
  rw [e0] at h0
  rw [e1] at h1
  rw [BitVec.toInt_eq_toNat_cond] at h0 h1
  have := g.isLt
  split at h0 <;> omega

/-- The precondition, all ones, read entry by entry. -/
theorem pre_decode (x0 : FVec Ideal S4x150x384x512 .f32) (x1 : IVec S4x1x384x512 32) (x2 x3 : FVec Ideal S4x1x384x512 .f32)
    (x4 : FVec Ideal S150x150 .f32) (h : Cert.Pre_finite_inputs.fn (F := Ideal) x0 x1 x2 x3 x4 = fun _ => 1#1) :
    (∀ i, ∃ r : ℝ, x0 i = (r : EReal)) ∧ (∀ i, ∃ r : ℝ, x3 i = (r : EReal)) ∧ (∀ i, ∃ r : ℝ, x4 i = (r : EReal))
      ∧ (∀ i, (x1 i).toNat < 150) := by
  -- the result at its one index is the conjunction of six reductions by "and", each of them 1
  have h0 := congrFun h ValueIdx.ix0
  dsimp only [fn, fn_part1] at h0
  simp only [andi, IntOp.andi_eq_one] at h0
  obtain ⟨⟨⟨⟨⟨a0, -⟩, a3⟩, a4⟩, g0⟩, g1⟩ := h0
  -- a reduction by "and" over all axes that is 1 met a 1 at every entry
  have e0 := Host.reduce_andi_all _ _ _ _ _ a0
  have e3 := Host.reduce_andi_all _ _ _ _ _ a3
  have e4 := Host.reduce_andi_all _ _ _ _ _ a4
  have f0 := Host.reduce_andi_all _ _ _ _ _ g0
  have f1 := Host.reduce_andi_all _ _ _ _ _ g1
  exact ⟨fun i => real_of_abs_lt_inf _ (e0 i), fun i => real_of_abs_lt_inf _ (e3 i), fun i => real_of_abs_lt_inf _ (e4 i),
    fun i => toNat_lt_of_signed _ (f0 i) (f1 i)⟩

end Cert.WCE.PreFacts

end
-- ==== Proof.Math.lean ====
/-
  The law that joins the two sides. For real logits the log-softmax is real; and when every array is real and every
  bin word is below 150, the weight table against the accumulated one-hot products is the pixel-by-pixel numerator:
  Σ_k Σ_c W[k,c] · Σ_n ([k = g_n] μ_n) (ℓ_{n,c} μ_n) = Σ_n Σ_c (W[g_n, c] μ_n) (ℓ_{n,c} μ_n), the weight moved across
  the pixel sum (real numbers: the product distributes), the sum over k collapsed at k = g_n, and the pixels counted
  once as (batch, tile, pixel of the tile).
-/
import proofs.«400182_j24893630447739_3_alg».proof.Proof.Spec
import Mathlib.Algebra.BigOperators.Fin
import Mathlib.Analysis.SpecialFunctions.Log.Basic

noncomputable section

open scoped BigOperators

namespace Cert.WCE.Math

open Idealize.ShloMosaic Idealize.ShloMosaic.ValueIdx Cert.WCE

/-- A finite sum of real numbers, read in the extended reals, is the sum of the readings. -/
private theorem sum_coe {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The larger of two real numbers, read in the extended reals, is the larger of the readings. -/
private theorem max_coe (x y : ℝ) : max (x : EReal) (y : EReal) = ((max x y : ℝ) : EReal) :=
  (EReal.coe_strictMono.monotone.map_max).symm

/-- The running maximum from −∞ over a set of real numbers is −∞ (the set was empty) or a real number. -/
private theorem fold_max_bot_or_coe (r : Fin 150 → ℝ) (s : Finset (Fin 150)) :
    s.fold max ⊥ (fun c => (r c : EReal)) = ⊥ ∨
      ∃ m : ℝ, s.fold max ⊥ (fun c => (r c : EReal)) = (m : EReal) := by
  classical
  refine Finset.induction_on s (Or.inl Finset.fold_empty) ?_
  intro a s ha ih
  right
  rw [Finset.fold_insert ha]
  rcases ih with h | ⟨m, h⟩
  · exact ⟨r a, by rw [h, max_bot_right]⟩
  · exact ⟨max (r a) m, by rw [h, max_coe]⟩

/-- The maximum of a column of 150 real numbers is a real number: the column has a first entry. -/
private theorem colMax_coe (r : Fin 150 → ℝ) : ∃ m : ℝ, colMax (fun c => (r c : EReal)) = (m : EReal) := by
  classical
  unfold colMax
  have hu : (Finset.univ : Finset (Fin 150)) = insert 0 (Finset.univ.erase 0) := by
    rw [Finset.insert_erase (Finset.mem_univ _)]
  rw [hu, Finset.fold_insert (Finset.notMem_erase _ _)]
  rcases fold_max_bot_or_coe r (Finset.univ.erase 0) with h | ⟨m, h⟩
  · exact ⟨r 0, by rw [h, max_bot_right]⟩
  · exact ⟨max (r 0) m, by rw [h, max_coe]⟩

/-- The log-softmax of a column of real numbers is a real number. -/
theorem lsm_real (col : Fin 150 → EReal) (h : ∀ c, ∃ r : ℝ, col c = (r : EReal)) (c : Fin 150) :
    ∃ r : ℝ, lsm col c = (r : EReal) := by
  choose r hr using h
  obtain rfl : col = fun c => (r c : EReal) := funext hr
  obtain ⟨m, hm⟩ := colMax_coe r
  have hpos : 0 < ∑ c' : Fin 150, Real.exp (r c' - m) :=
    Finset.sum_pos (fun i _ => Real.exp_pos _) Finset.univ_nonempty
  refine ⟨(r c - m) - Real.log (∑ c' : Fin 150, Real.exp (r c' - m)), ?_⟩
  unfold lsm
  simp only [hm, ← EReal.coe_sub, Ideal.exp_coe, sum_coe, Ideal.log_coe, if_neg (not_le.mpr hpos)]

/-- With every class's entry taken in the reals: the weight moves inside the pixel sum, the three sums change places,
    and the sum over k keeps its one term k = g n. -/
private theorem core_real {ι κ γ : Type*} [Fintype ι] [Fintype κ] [Fintype γ] [DecidableEq κ]
    (g : ι → κ) (w : κ → γ → ℝ) (μ : ι → ℝ) (ℓ : ι → γ → ℝ) :
    ∑ k, ∑ c, w k c * ∑ n, ((if k = g n then (1 : ℝ) else 0) * μ n) * (ℓ n c * μ n)
      = ∑ n, ∑ c, (w (g n) c * μ n) * (ℓ n c * μ n) := by
  calc ∑ k, ∑ c, w k c * ∑ n, ((if k = g n then (1 : ℝ) else 0) * μ n) * (ℓ n c * μ n)
      = ∑ k, ∑ c, ∑ n, (if k = g n then (w k c * μ n) * (ℓ n c * μ n) else 0) := by
        refine Finset.sum_congr rfl fun k _ => Finset.sum_congr rfl fun c _ => ?_
        rw [Finset.mul_sum]
        refine Finset.sum_congr rfl fun n _ => ?_
        split_ifs <;> ring
    _ = ∑ k, ∑ n, ∑ c, (if k = g n then (w k c * μ n) * (ℓ n c * μ n) else 0) := by
        refine Finset.sum_congr rfl fun k _ => Finset.sum_comm
    _ = ∑ n, ∑ k, ∑ c, (if k = g n then (w k c * μ n) * (ℓ n c * μ n) else 0) := Finset.sum_comm
    _ = ∑ n, ∑ c, ∑ k, (if k = g n then (w k c * μ n) * (ℓ n c * μ n) else 0) := by
        refine Finset.sum_congr rfl fun n _ => Finset.sum_comm
    _ = ∑ n, ∑ c, (w (g n) c * μ n) * (ℓ n c * μ n) := by
        refine Finset.sum_congr rfl fun n _ => Finset.sum_congr rfl fun c _ => ?_
        rw [Finset.sum_ite_eq' Finset.univ (g n) (fun k => (w k c * μ n) * (ℓ n c * μ n)),
          if_pos (Finset.mem_univ _)]

/-- The pixels counted once: (batch b, tile s of the batch, pixel q of the tile) is the flat pixel
    4096 (48 b + s) + q, and every flat pixel below 4 · 48 · 4096 is so reached exactly once. -/
private def pixEquiv : (Fin 4 × Fin 48) × Fin 4096 ≃ Fin 786432 where
  toFun p := ⟨4096 * (48 * p.1.1.val + p.1.2.val) + p.2.val, by
    have := p.1.1.isLt; have := p.1.2.isLt; have := p.2.isLt; omega⟩
  invFun n := ((⟨n.val / 196608, by have := n.isLt; omega⟩, ⟨n.val / 4096 % 48, Nat.mod_lt _ (by decide)⟩),
    ⟨n.val % 4096, Nat.mod_lt _ (by decide)⟩)
  left_inv := by
    rintro ⟨⟨b, s⟩, q⟩
    have := b.isLt; have := s.isLt; have := q.isLt
    refine Prod.ext (Prod.ext (Fin.ext ?_) (Fin.ext ?_)) (Fin.ext ?_) <;> simp only [] <;> omega
  right_inv := by
    intro n
    have := n.isLt
    apply Fin.ext
    simp only []
    omega

/-- The batches' tiles' pixel sums add up to the sum over all pixels (in any commutative monoid). -/
private theorem sum_tiles {M : Type*} [AddCommMonoid M] (f : Fin 786432 → M) :
    ∑ b : Fin 4, ∑ s ∈ Finset.range 48,
      (if h : 48 * b.val + s < 192 then ∑ q : Fin 4096, f (flat ⟨48 * b.val + s, h⟩ q) else 0)
      = ∑ n, f n := by
  have h1 : ∀ b : Fin 4, ∑ s ∈ Finset.range 48,
      (if h : 48 * b.val + s < 192 then ∑ q : Fin 4096, f (flat ⟨48 * b.val + s, h⟩ q) else 0)
      = ∑ s : Fin 48, ∑ q : Fin 4096, f (pixEquiv ((b, s), q)) := by
    intro b
    rw [Finset.sum_range]
    refine Finset.sum_congr rfl fun s _ => ?_
    have hlt : 48 * b.val + s.val < 192 := by have := b.isLt; have := s.isLt; omega
    rw [dif_pos hlt]
    rfl
  rw [Finset.sum_congr rfl fun b _ => h1 b, ← Equiv.sum_comp pixEquiv f, Fintype.sum_prod_type,
    Fintype.sum_prod_type]

/-- THE LAW: the weight table against the batch sums of the accumulated array is the numerator. -/
theorem numer_eq (P : SPred.Idx → EReal) (Gb : SMask.Idx → BitVec 32) (Mk : SMask.Idx → EReal) (W : SWt.Idx → EReal)
    (hP : ∀ i, ∃ r : ℝ, P i = (r : EReal)) (hM : ∀ i, ∃ r : ℝ, Mk i = (r : EReal)) (hW : ∀ i, ∃ r : ℝ, W i = (r : EReal))
    (hG : ∀ i, (Gb i).toNat < 150) :
    ∑ k : Fin 150, ∑ c : Fin 150, W (ix2 k c) * ((0 : EReal) + ∑ b : Fin 4, accArr P Gb Mk (ix3 b k c))
      = numer P Gb Mk W := by
  -- the accumulated array's batch sums are the sums over all pixels
  have hacc : ∀ k c : Fin 150, (0 : EReal) + ∑ b : Fin 4, accArr P Gb Mk (ix3 b k c)
      = ∑ n, tileTerm P Gb Mk k c n := by
    intro k c
    rw [zero_add]
    exact sum_tiles (fun n => tileTerm P Gb Mk k c n)
  -- the one-hot entry is 1 at the pixel's class and 0 elsewhere
  have hhot : ∀ (k : Fin 150) (n : Fin 786432),
      hot k (bin Gb n) = ((if k = cls (bin Gb n) then (1 : ℝ) else 0 : ℝ) : EReal) := by
    intro k n
    have hg : (bin Gb n).toNat < 150 := hG _
    have hiff : BitVec.ofNat 32 k.val = bin Gb n ↔ k = cls (bin Gb n) := by
      rw [← BitVec.toNat_inj, BitVec.toNat_ofNat, Fin.ext_iff]
      simp only [cls]
      have := k.isLt
      omega
    unfold hot
    by_cases hk : k = cls (bin Gb n)
    · rw [if_pos (hiff.mpr hk), if_pos hk, EReal.coe_one]
    · rw [if_neg (mt hiff.mp hk), if_neg hk, EReal.coe_zero]
  -- every entry is a real number
  choose w hw using hW
  choose m hm using hM
  have hlp : ∀ (n : Fin 786432) (c : Fin 150), ∃ r : ℝ, lp P n c = (r : EReal) :=
    fun n c => lsm_real _ (fun c' => hP _) c
  choose ℓ hℓ using hlp
  unfold numer
  simp only [hacc, tileTerm, mu, hw, hm, hℓ, hhot, ← EReal.coe_mul, sum_coe]
  exact congrArg _ (core_real (fun n => cls (bin Gb n)) (fun k c => w (ix2 k c)) (fun n => m (pixM n)) ℓ)

end Cert.WCE.Math

end
-- ==== Proof.CountEq.lean ====
/-
  Both programs count the pixels whose mask is positive, the kernel's over the array (b, 1, h, w) and the reference's over
  its row-major reshape to (n, 1): a sum of words does not depend on the order, so the two counts are one word.
-/
import proofs.«400182_j24893630447739_3_alg».proof.Proof.KTail
import proofs.«400182_j24893630447739_3_alg».proof.Proof.RefRead
import Idealize.ShloMosaic.PureOps.Reduce
import Idealize.ShloMosaic.Lib.Pipeline.Value

noncomputable section

open scoped BigOperators

namespace Cert.WCE.CountEq

open Idealize.ShloMosaic Idealize.ShloMosaic.ValueIdx Cert.WCE

/-- A fold of a commutative, associative operation over every index of a reshaped array is the fold over every index of the
    array: the reshape is a bijection of the index sets. -/
theorem fold_reshape {s t : Shape} {β : Type} (h : t.numel = s.numel) (op : β → β → β) [Std.Commutative op] [Std.Associative op]
    (b : β) (g : s.Idx → β) :
    (Finset.univ : Finset t.Idx).fold op b (fun j => g (Shape.reshapeEquiv h j)) = (Finset.univ : Finset s.Idx).fold op b g := by
  rw [← Finset.map_univ_equiv (Shape.reshapeEquiv h), Finset.fold_map]
  rfl

/-- The word a pixel contributes: 1 when its mask value is above zero, else 0. -/
def posWord (x : EReal) : BitVec 32 := (FloatOps.cmpf (F := Ideal) (φ := .f32) .ogt x (Ideal.ofBits .f32 0x00000000#32)).setWidth 32

/-- The kernel program's count is the reference's. -/
theorem cnt_eq (Mk : FVec Ideal Cert.KernelIdeal.S4x1x384x512 .f32) :
    Cert.WCE.KTail.kCnt Mk = Cert.ReferenceIdeal.Read.val_main_v19 (F := Ideal) Mk := by
  funext j
  unfold Cert.WCE.KTail.kCnt Cert.ReferenceIdeal.Read.val_main_v19
  rw [Host.reduce_eq_fold, Host.reduce_eq_fold,
    Finset.filter_true_of_mem (fun i _ => funext fun b => b.elim0),
    Finset.filter_true_of_mem (fun i _ => funext fun b => b.elim0)]
  exact (fold_reshape (s := Cert.KernelIdeal.S4x1x384x512) (t := Cert.ReferenceIdeal.S786432x1)
    Cert.ReferenceIdeal.Gen.shapeCasts_S4x1x384x512_S786432x1 IntOp.addi (0#32) (fun i => posWord (Mk i))).symm

end Cert.WCE.CountEq

end
-- ==== Proof.lean ====
/-
  The weighted cross-entropy loss: a Pallas kernel against its jnp reference, over the extended reals.

  The reference takes, pixel by pixel, the weight row of the pixel's bin against the pixel's masked log-softmax:
  loss = −(Σ_n Σ_c (W[g_n, c] μ_n)(ℓ_{n,c} μ_n)) / #{n : μ_n > 0}. The kernel never forms the per-pixel rows: per batch it
  accumulates, tile of 4096 pixels by tile, the 150 × 150 product M[k, c] = Σ_n ([k = g_n] μ_n)(ℓ_{n,c} μ_n) of a one-hot
  matrix with the masked log-probabilities, and the host lines after it take −(Σ_{k,c} W[k,c] Σ_b M_b[k,c]) / count.
  The two numerators are one number when every array is real (the weight moves across the pixel sum by distributivity)
  and every bin is a class below 150 (the one-hot row of an out-of-range bin is zero, while a row take reads some row):
  the precondition says both. The denominators are one count of the same words.
-/
import proofs.«400182_j24893630447739_3_alg».proof.Defs
import proofs.«400182_j24893630447739_3_alg».proof.Proof.Gen.Kernel
import proofs.«400182_j24893630447739_3_alg».proof.Proof.Gen.Kernel.Frame
import proofs.«400182_j24893630447739_3_alg».proof.Proof.Gen.KernelIdeal
import proofs.«400182_j24893630447739_3_alg».proof.Proof.Gen.KernelIdeal.Frame
import proofs.«400182_j24893630447739_3_alg».proof.Proof.Gen.ReferenceIdeal
import proofs.«400182_j24893630447739_3_alg».proof.Proof.Gen.Pre_finite_inputs
import proofs.«400182_j24893630447739_3_alg».proof.Proof.RefRunHand
import proofs.«400182_j24893630447739_3_alg».proof.Proof.RefRead
import proofs.«400182_j24893630447739_3_alg».proof.Proof.KTail
import proofs.«400182_j24893630447739_3_alg».proof.Proof.RefValue
import proofs.«400182_j24893630447739_3_alg».proof.Proof.PreFacts
import proofs.«400182_j24893630447739_3_alg».proof.Proof.Math
import proofs.«400182_j24893630447739_3_alg».proof.Proof.CountEq
import Idealize.ShloMosaic.Adequacy
import Idealize.ShloMosaic.Init

noncomputable section

namespace Cert.Proof

open Idealize.ShloMosaic Idealize.ShloMosaic.TcCoe Idealize.SL.Sem Idealize.ShloMosaic.ValueIdx
open Cert.WCE

/-- The two programs' results are one function of the arrays: equal numerators (the law), equal counts. -/
theorem result_eq (P : FVec Ideal Cert.KernelIdeal.S4x150x384x512 .f32) (Gb : IVec Cert.KernelIdeal.S4x1x384x512 32)
    (Mk : FVec Ideal Cert.KernelIdeal.S4x1x384x512 .f32) (W : FVec Ideal Cert.KernelIdeal.S150x150 .f32)
    (hP : ∀ i, ∃ r : ℝ, P i = (r : EReal)) (hM : ∀ i, ∃ r : ℝ, Mk i = (r : EReal)) (hW : ∀ i, ∃ r : ℝ, W i = (r : EReal))
    (hG : ∀ i, (Gb i).toNat < 150) :
    Cert.ReferenceIdeal.Read.val_main_v24 (F := Ideal) P Gb Mk W = KTail.kres (accArr P Gb Mk) Mk W := by
  funext i
  have hnum : Cert.ReferenceIdeal.Read.val_main_v22 (F := Ideal) P Gb Mk W i = KTail.kNum (accArr P Gb Mk) W i := by
    rw [RefValue.ref_num P Gb Mk W hG i, KTail.kNum_apply, Math.numer_eq P Gb Mk W hP hM hW hG]
  show FloatOps.hostDivf (FloatOps.hostNegf (Cert.ReferenceIdeal.Read.val_main_v22 (F := Ideal) P Gb Mk W i))
      (FloatOps.sitofp .f32 (Cert.ReferenceIdeal.Read.val_main_v19 (F := Ideal) Mk i))
    = FloatOps.hostDivf (FloatOps.hostNegf (KTail.kNum (accArr P Gb Mk) W i)) (FloatOps.sitofp .f32 (KTail.kCnt Mk i))
  rw [hnum, CountEq.cnt_eq Mk]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (RefRunHand.ref_run (F := Ideal) m ρ)

theorem preserves : Cert.preserves_Kernel_KernelIdeal := trivial

/-- Both programs run; the kernel program ends at its host lines' value of the accumulated array, the reference at its
    stages' value, of arrays that agree: one function under the precondition. -/
theorem algebraic : Cert.algebraic_KernelIdeal_ReferenceIdeal := by
  intro m ρ m' ρ' hpre hagree
  refine ⟨fun c => KTail.kres (accArr (KBlocks.argP m c) (KBlocks.argG m c) (KBlocks.argM m c)) (KBlocks.argM m c)
    (KBlocks.argW m c), KTail.run m ρ, ?_⟩
  refine (θ_run Cert.ReferenceIdeal.defs _ _).mono (fun _ h c => ⟨(h c).1.trans ?_, (h c).2⟩)
    (RefRunHand.ref_run (F := Ideal) m' ρ')
  obtain ⟨hP, hM, hW, hG⟩ := PreFacts.pre_decode _ _ _ _ _ (hpre c)
  rw [(hagree c).1, (hagree c).2.1, (hagree c).2.2.2.1, (hagree c).2.2.2.2]
  exact result_eq _ _ _ _ hP hM hW hG

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
